-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6000x22x3 : Shape := ⟨3, ![6000, 22, 3]⟩
abbrev S3x64 : Shape := ⟨2, ![3, 64]⟩
abbrev S64 : Shape := ⟨1, ![64]⟩
abbrev S3x64x64 : Shape := ⟨3, ![3, 64, 64]⟩
abbrev S64x4 : Shape := ⟨2, ![64, 4]⟩
abbrev S4 : Shape := ⟨1, ![4]⟩
abbrev S2x132000 : Shape := ⟨2, ![2, 132000]⟩
abbrev S_ : Shape := ⟨0, ![]⟩

class Facts : Prop where
  bcast_S_S6000x22x3 : S_.BroadcastsInDim S6000x22x3 (![] : Fin 0 → Fin S6000x22x3.rank)
  reducesTo_S6000x22x3_S_d0_1_2 : S6000x22x3.ReducesTo [0, 1, 2] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S3x64 .f32) (main_arg5 : FVec F S64x4 .f32) (main_arg6 : FVec F S4 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg4
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S64x4 .f32 := Host.absf main_arg5
  let main_cst_8 : FVec F S_ .f32 := constant S_ .f32 0x7F800000#32
  let main_v25 : FVec F S64x4 .f32 := broadcastInDim S64x4 ![] bcast_S_S64x4 main_cst_8
  let main_v26 : IVec S64x4 1 := cmpf .olt main_v24 main_v25
  let main_c_9 : IVec S_ 1 := constantI S_ 1 1#1
  let main_v27 : IVec S_ 1 := (fun x v => Host.reduce IntOp.andi x v reducesTo_S64x4_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S6000x22x3 .f32) (main_arg1 : FVec F S3x64 .f32) (main_arg2 : FVec F S64 .f32) (main_arg3 : FVec F S3x64x64 .f32) (main_arg4 : FVec F S3x64 .f32) (main_arg5 : FVec F S64x4 .f32) (main_arg6 : FVec F S4 .f32) (main_arg7 : IVec S2x132000 32) : IVec S_ 1 :=
  let main_v0 : FVec F S6000x22x3 .f32 := Host.absf main_arg0
  let main_cst : FVec F S_ .f32 := constant S_ .f32 0x7F800000#32
  let main_v1 : FVec F S6000x22x3 .f32 := broadcastInDim S6000x22x3 ![] bcast_S_S6000x22x3 main_cst
  let main_v2 : IVec S6000x22x3 1 := cmpf .olt main_v0 main_v1
  let main_c : IVec S_ 1 := constantI S_ 1 1#1
  let main_v3 : IVec S_ 1 := (fun x v => Host.reduce IntOp.andi x v reducesTo_S6000x22x3_S_d0_1_2 h_S_) main_v2 main_c
  let main_v4 : FVec F S3x64 .f32 := Host.absf main_arg1
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg3
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg4 main_arg5 main_arg6 main_v13 main_v16
-- ==== Kernel.lean ====
abbrev S6000x22x3 : Shape := ⟨3, ![6000, 22, 3]⟩
abbrev S3x64 : Shape := ⟨2, ![3, 64]⟩
abbrev S64 : Shape := ⟨1, ![64]⟩
abbrev S3x64x64 : Shape := ⟨3, ![3, 64, 64]⟩
abbrev S64x4 : Shape := ⟨2, ![64, 4]⟩
abbrev S4 : Shape := ⟨1, ![4]⟩
abbrev S2x132000 : Shape := ⟨2, ![2, 132000]⟩
abbrev S132000x3 : Shape := ⟨2, ![132000, 3]⟩
abbrev S1x64 : Shape := ⟨2, ![1, 64]⟩
abbrev S1x4 : Shape := ⟨2, ![1, 4]⟩
abbrev S132000x2 : Shape := ⟨2, ![132000, 2]⟩
abbrev S6000x3 : Shape := ⟨2, ![6000, 3]⟩
abbrev S6000x2 : Shape := ⟨2, ![6000, 2]⟩
abbrev S6000x64 : Shape := ⟨2, ![6000, 64]⟩
abbrev S1x64x64 : Shape := ⟨3, ![1, 64, 64]⟩
abbrev S64x64 : Shape := ⟨2, ![64, 64]⟩
abbrev S6000x4 : Shape := ⟨2, ![6000, 4]⟩
abbrev S_ : Shape := ⟨0, ![]⟩
abbrev S12000x12000 : Shape := ⟨2, ![12000, 12000]⟩
abbrev S1x132000 : Shape := ⟨2, ![1, 132000]⟩
abbrev S132000 : Shape := ⟨1, ![132000]⟩
abbrev S132000x1 : Shape := ⟨2, ![132000, 1]⟩

abbrev nBuf : Space → Nat
  | .hbm => 74
  | .vmem => 10
  | .smem => 0
  | _ => 0

abbrev bufTy : (tb : Table) → Fin (tcTables nBuf tb) → BufTy
  | .hbm, ⟨0, _⟩ => ⟨S6000x22x3, .f32⟩
  | .hbm, ⟨1, _⟩ => ⟨S3x64, .f32⟩
  | .hbm, ⟨2, _⟩ => ⟨S64, .f32⟩
  | .hbm, ⟨3, _⟩ => ⟨S3x64x64, .f32⟩
  | .hbm, ⟨4, _⟩ => ⟨S3x64, .f32⟩
  | .hbm, ⟨5, _⟩ => ⟨S64x4, .f32⟩
  | .hbm, ⟨6, _⟩ => ⟨S4, .f32⟩
  | .hbm, ⟨7, _⟩ => ⟨S2x132000, .i32⟩
  | .hbm, ⟨8, _⟩ => ⟨S132000x3, .f32⟩
  | .hbm, ⟨9, _⟩ => ⟨S1x64, .f32⟩
  | .hbm, ⟨10, _⟩ => ⟨S1x4, .f32⟩
  | .hbm, ⟨11, _⟩ => ⟨S132000x2, .f32⟩
  | .hbm, ⟨12, _⟩ => ⟨S_, .f32⟩
  | .hbm, ⟨13, _⟩ => ⟨S12000x12000, .f32⟩
  | .hbm, ⟨14, _⟩ => ⟨S_, .i32⟩
  | .hbm, ⟨15, _⟩ => ⟨S2x132000, .i32⟩
  | .hbm, ⟨16, _⟩ => ⟨S2x132000, .i32⟩
  | .hbm, ⟨17, _⟩ => ⟨S_, .i32⟩
  | .hbm, ⟨18, _⟩ => ⟨S2x132000, .i32⟩
  | .hbm, ⟨19, _⟩ => ⟨S2x132000, .i32⟩
  | .hbm, ⟨20, _⟩ => ⟨S1x132000, .i32⟩
  | .hbm, ⟨21, _⟩ => ⟨S132000, .i32⟩
  | .hbm, ⟨22, _⟩ => ⟨S1x132000, .i32⟩
  | .hbm, ⟨23, _⟩ => ⟨S132000, .i32⟩
  | .hbm, ⟨24, _⟩ => ⟨S132000x1, .f32⟩
  | .hbm, ⟨25, _⟩ => ⟨S132000, .f32⟩
  | .hbm, ⟨26, _⟩ => ⟨S_, .i32⟩
  | .hbm, ⟨27, _⟩ => ⟨S132000, .i32⟩
  | .hbm, ⟨28, _⟩ => ⟨S132000, .i1⟩
  | .hbm, ⟨29, _⟩ => ⟨S_, .i32⟩
  | .hbm, ⟨30, _⟩ => ⟨S132000, .i32⟩
  | .hbm, ⟨31, _⟩ => ⟨S132000, .i32⟩
  | .hbm, ⟨32, _⟩ => ⟨S132000, .i32⟩
  | .hbm, ⟨33, _⟩ => ⟨S_, .i32⟩
  | .hbm, ⟨34, _⟩ => ⟨S132000, .i32⟩
  | .hbm, ⟨35, _⟩ => ⟨S132000, .i1⟩
  | .hbm, ⟨36, _⟩ => ⟨S_, .i32⟩
  | .hbm, ⟨37, _⟩ => ⟨S132000, .i32⟩
  | .hbm, ⟨38, _⟩ => ⟨S132000, .i32⟩
  | .hbm, ⟨39, _⟩ => ⟨S132000, .i32⟩
  | .hbm, ⟨40, _⟩ => ⟨S132000x1, .i32⟩
  | .hbm, ⟨41, _⟩ => ⟨S132000x1, .i32⟩
  | .hbm, ⟨42, _⟩ => ⟨S132000x2, .i32⟩
  | .hbm, ⟨43, _⟩ => ⟨S12000x12000, .f32⟩
  | .hbm, ⟨44, _⟩ => ⟨S_, .i32⟩
  | .hbm, ⟨45, _⟩ => ⟨S2x132000, .i32⟩
  | .hbm, ⟨46, _⟩ => ⟨S2x132000, .i32⟩
  | .hbm, ⟨47, _⟩ => ⟨S_, .i32⟩
  | .hbm, ⟨48, _⟩ => ⟨S2x132000, .i32⟩
  | .hbm, ⟨49, _⟩ => ⟨S2x132000, .i32⟩
  | .hbm, ⟨50, _⟩ => ⟨S1x132000, .i32⟩
  | .hbm, ⟨51, _⟩ => ⟨S132000, .i32⟩
  | .hbm, ⟨52, _⟩ => ⟨S1x132000, .i32⟩
  | .hbm, ⟨53, _⟩ => ⟨S132000, .i32⟩
  | .hbm, ⟨54, _⟩ => ⟨S132000x1, .f32⟩
  | .hbm, ⟨55, _⟩ => ⟨S132000, .f32⟩
  | .hbm, ⟨56, _⟩ => ⟨S_, .i32⟩
  | .hbm, ⟨57, _⟩ => ⟨S132000, .i32⟩
  | .hbm, ⟨58, _⟩ => ⟨S132000, .i1⟩
  | .hbm, ⟨59, _⟩ => ⟨S_, .i32⟩
  | .hbm, ⟨60, _⟩ => ⟨S132000, .i32⟩
  | .hbm, ⟨61, _⟩ => ⟨S132000, .i32⟩
  | .hbm, ⟨62, _⟩ => ⟨S132000, .i32⟩
  | .hbm, ⟨63, _⟩ => ⟨S_, .i32⟩
  | .hbm, ⟨64, _⟩ => ⟨S132000, .i32⟩
  | .hbm, ⟨65, _⟩ => ⟨S132000, .i1⟩
  | .hbm, ⟨66, _⟩ => ⟨S_, .i32⟩
  | .hbm, ⟨67, _⟩ => ⟨S132000, .i32⟩
  | .hbm, ⟨68, _⟩ => ⟨S132000, .i32⟩
  | .hbm, ⟨69, _⟩ => ⟨S132000, .i32⟩
  | .hbm, ⟨70, _⟩ => ⟨S132000x1, .i32⟩
  | .hbm, ⟨71, _⟩ => ⟨S132000x1, .i32⟩
  | .hbm, ⟨72, _⟩ => ⟨S132000x2, .i32⟩
  | .hbm, ⟨73, _⟩ => ⟨S12000x12000, .f32⟩
  | .local _ .vmem, ⟨0, _⟩ => ⟨S6000x3, .f32⟩
  | .local _ .vmem, ⟨1, _⟩ => ⟨S6000x3, .f32⟩
  | .local _ .vmem, ⟨2, _⟩ => ⟨S3x64, .f32⟩
  | .local _ .vmem, ⟨3, _⟩ => ⟨S1x64, .f32⟩
  | .local _ .vmem, ⟨4, _⟩ => ⟨S3x64x64, .f32⟩
  | .local _ .vmem, ⟨5, _⟩ => ⟨S3x64, .f32⟩
  | .local _ .vmem, ⟨6, _⟩ => ⟨S64x4, .f32⟩
  | .local _ .vmem, ⟨7, _⟩ => ⟨S1x4, .f32⟩
  | .local _ .vmem, ⟨8, _⟩ => ⟨S6000x2, .f32⟩
  | .local _ .vmem, ⟨9, _⟩ => ⟨S6000x2, .f32⟩
  | _, _ => ⟨S6000x22x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_7 : Ref sig .tc := ⟨.hbm, 56, rfl⟩
abbrev main_v39 : Ref sig .tc := ⟨.hbm, 57, rfl⟩
abbrev main_v40 : Ref sig .tc := ⟨.hbm, 58, rfl⟩
abbrev main_c_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6000x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S6000x22x3_S132000x3 : S6000x22x3.ShapeCasts S132000x3
  shapeCasts_S64_S1x64 : S64.ShapeCasts S1x64
  shapeCasts_S4_S1x4 : S4.ShapeCasts S1x4
  inb_S6000x3_S6000x3_0_0 : ∀ a, (![0, 0] : Fin 2 → Nat) a + S6000x3.size a ≤ S6000x3.size a
  h_S6000x3 : 0 < S6000x3.numel
  shapeCasts_S6000x3_S6000x3 : S6000x3.ShapeCasts S6000x3
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S1x64_S1x64_0_0 : ∀ a, (![0, 0] : Fin 2 → Nat) a + S1x64.size a ≤ S1x64.size a
  h_S1x64 : 0 < S1x64.numel
  shapeCasts_S1x64_S64 : S1x64.ShapeCasts S64
  broadcasts_S1x64_S6000x64 : S1x64.Broadcasts S6000x64
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64_S1x64_0_0 : ∀ a, (![0, 0] : Fin 2 → Nat) a + S1x64.size a ≤ S3x64.size a
  inb_S3x64x64_S1x64x64_1_0_0 : ∀ a, (![1, 0, 0] : Fin 3 → Nat) a + S1x64x64.size a ≤ S3x64x64.size a
  inb_S3x64_S1x64_1_0 : ∀ a, (![1, 0] : Fin 2 → Nat) a + S1x64.size a ≤ S3x64.size a
  inb_S3x64x64_S1x64x64_2_0_0 : ∀ a, (![2, 0, 0] : Fin 3 → Nat) a + S1x64x64.size a ≤ S3x64x64.size a
  inb_S3x64_S1x64_2_0 : ∀ a, (![2, 0] : Fin 2 → Nat) a + S1x64.size a ≤ S3x64.size a
  inb_S64x4_S64x4_0_0 : ∀ a, (![0, 0] : Fin 2 → Nat) a + S64x4.size a ≤ S64x4.size a
  h_S64x4 : 0 < S64x4.numel
  inb_S1x4_S1x4_0_0 : ∀ a, (![0, 0] : Fin 2 → Nat) a + S1x4.size a ≤ S1x4.size a
  h_S1x4 : 0 < S1x4.numel
  shapeCasts_S1x4_S4 : S1x4.ShapeCasts S4
  broadcasts_S1x4_S6000x4 : S1x4.Broadcasts S6000x4
  slices_S6000x4_o0_0_S6000x2 : S6000x4.Slices ![0, 0] S6000x2
  slices_S6000x4_o0_2_S6000x2 : S6000x4.Slices ![0, 2] S6000x2
  inb_S6000x2_S6000x2_0_0 : ∀ a, (![0, 0] : Fin 2 → Nat) a + S6000x2.size a ≤ S6000x2.size a
  h_S6000x2 : 0 < S6000x2.numel
  bcast_S_S12000x12000 : S_.BroadcastsInDim S12000x12000 (![] : Fin 0 → Fin S12000x12000.rank)
  bcast_S_S2x132000 : S_.BroadcastsInDim S2x132000 (![] : Fin 0 → Fin S2x132000.rank)
  slices_S2x132000_S1x132000_0_0 : S2x132000.Slices ![0, 0] S1x132000
  shapeCasts_S1x132000_S132000 : S1x132000.ShapeCasts S132000
  slices_S2x132000_S1x132000_1_0 : S2x132000.Slices ![1, 0] S1x132000
  slices_S132000x2_S132000x1_0_0 : S132000x2.Slices ![0, 0] S132000x1
  shapeCasts_S132000x1_S132000 : S132000x1.ShapeCasts S132000
  bcast_S_S132000 : S_.BroadcastsInDim S132000 (![] : Fin 0 → Fin S132000.rank)
  bcast_S132000_S132000x1_0 : S132000.BroadcastsInDim S132000x1 (![0] : Fin 1 → Fin S132000x1.rank)
  concatenates_S132000x1_S132000x1_S132000x2_d1 : Shape.Concatenates [S132000x1, S132000x1] S132000x2 1
  slices_S132000x2_S132000x1_0_1 : S132000x2.Slices ![0, 1] S132000x1
  dot_S6000x3_S3x64_S6000x64_1_0_0_1_n_n_wf : DotDims.WF S6000x3 S3x64 S6000x64 [1] [0] [0] [1] [] []
  dot_S6000x64_S64x64_S6000x64_1_0_0_1_n_n_wf : DotDims.WF S6000x64 S64x64 S6000x64 [1] [0] [0] [1] [] []
  dot_S6000x64_S64x4_S6000x4_1_0_0_1_n_n_wf : DotDims.WF S6000x64 S64x4 S6000x4 [1] [0] [0] [1] [] []
  scatter_S12000x12000_S132000x2_S132000_n_01_01_1_wf : ScatterDims.WF S12000x12000 S132000x2 S132000 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x3.size a ≤ S132000x3.size a
  hwx0_0 : ∀ i : grid0.Coords, EltTy.bits .f32 = 32 ∨ (Rect.block (s := S132000x3) S6000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64x64.size a ≤ S3x64x64.size a
  hwx0_3 : ∀ i : grid0.Coords, EltTy.bits .f32 = 32 ∨ (Rect.block (s := S3x64x64) S3x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64.size a ≤ S3x64.size a
  hwx0_4 : ∀ i : grid0.Coords, EltTy.bits .f32 = 32 ∨ (Rect.block (s := S3x64) S3x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x4.size a ≤ S64x4.size a
  hwx0_5 : ∀ i : grid0.Coords, EltTy.bits .f32 = 32 ∨ (Rect.block (s := S64x4) S64x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4.size a ≤ S1x4.size a
  hwx0_6 : ∀ i : grid0.Coords, EltTy.bits .f32 = 32 ∨ (Rect.block (s := S1x4) S1x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6000x2.size a ≤ S132000x2.size a
  hwx0_7 : ∀ i : grid0.Coords, EltTy.bits .f32 = 32 ∨ (Rect.block (s := S132000x2) S6000x2.size (cc0_transform_7 i) (hinb0_7 i)).WholeWords (EltTy.packing .f32)

variable [Facts₀]

def dot_S6000x3_S3x64_S6000x64_1_0_0_1_n_n : DotDims S6000x3 S3x64 S6000x64 where
  lhsContracting := [1]
  rhsContracting := [0]
  lhsNonContracting := [0]
  rhsNonContracting := [1]
  lhsBatch := []
  rhsBatch := []
  wf := dot_S6000x3_S3x64_S6000x64_1_0_0_1_n_n_wf
def dot_S6000x64_S64x64_S6000x64_1_0_0_1_n_n : DotDims S6000x64 S64x64 S6000x64 where
  lhsContracting := [1]
  rhsContracting := [0]
  lhsNonContracting := [0]
  rhsNonContracting := [1]
  lhsBatch := []
  rhsBatch := []
  wf := dot_S6000x64_S64x64_S6000x64_1_0_0_1_n_n_wf
def dot_S6000x64_S64x4_S6000x4_1_0_0_1_n_n : DotDims S6000x64 S64x4 S6000x4 where
  lhsContracting := [1]
  rhsContracting := [0]
  lhsNonContracting := [0]
  rhsNonContracting := [1]
  lhsBatch := []
  rhsBatch := []
  wf := dot_S6000x64_S64x4_S6000x4_1_0_0_1_n_n_wf
def scatter_S12000x12000_S132000x2_S132000_n_01_01_1 : ScatterDims S12000x12000 S132000x2 S132000 where
  updateWindowDims := []
  insertedWindowDims := [0, 1]
  scatterDimsToOperandDims := [0, 1]
  indexVectorDim := 1
  wf := scatter_S12000x12000_S132000x2_S132000_n_01_01_1_wf

abbrev win0_0 : Pipeline.Window sig grid0 :=
  Pipeline.Window.ofSpec (Memref.whole main_v0) S6000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S6000x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S6000x22x3 : Shape := ⟨3, ![6000, 22, 3]⟩
abbrev S3x64 : Shape := ⟨2, ![3, 64]⟩
abbrev S64 : Shape := ⟨1, ![64]⟩
abbrev S3x64x64 : Shape := ⟨3, ![3, 64, 64]⟩
abbrev S64x4 : Shape := ⟨2, ![64, 4]⟩
abbrev S4 : Shape := ⟨1, ![4]⟩
abbrev S2x132000 : Shape := ⟨2, ![2, 132000]⟩
abbrev S132000x3 : Shape := ⟨2, ![132000, 3]⟩
abbrev S132000x64 : Shape := ⟨2, ![132000, 64]⟩
abbrev S1x64 : Shape := ⟨2, ![1, 64]⟩
abbrev S_ : Shape := ⟨0, ![]⟩
abbrev S1x64x64 : Shape := ⟨3, ![1, 64, 64]⟩
abbrev S64x64 : Shape := ⟨2, ![64, 64]⟩
abbrev S132000x4 : Shape := ⟨2, ![132000, 4]⟩
abbrev S1x4 : Shape := ⟨2, ![1, 4]⟩
abbrev S132000x2x2 : Shape := ⟨3, ![132000, 2, 2]⟩
abbrev S132000x2 : Shape := ⟨2, ![132000, 2]⟩
abbrev S12000x12000 : Shape := ⟨2, ![12000, 12000]⟩
abbrev S1x132000 : Shape := ⟨2, ![1, 132000]⟩
abbrev S132000 : Shape := ⟨1, ![132000]⟩
abbrev S132000x1 : Shape := ⟨2, ![132000, 1]⟩

abbrev nBuf : Space → Nat
  | .hbm => 118
  | .vmem => 0
  | .smem => 0
  | _ => 0

abbrev bufTy : (tb : Table) → Fin (tcTables nBuf tb) → BufTy
  | .hbm, ⟨0, _⟩ => ⟨S6000x22x3, .f32⟩
  | .hbm, ⟨1, _⟩ => ⟨S3x64, .f32⟩
  | .hbm, ⟨2, _⟩ => ⟨S64, .f32⟩
  | .hbm, ⟨3, _⟩ => ⟨S3x64x64, .f32⟩
  | .hbm, ⟨4, _⟩ => ⟨S3x64, .f32⟩
  | .hbm, ⟨5, _⟩ => ⟨S64x4, .f32⟩
  | .hbm, ⟨6, _⟩ => ⟨S4, .f32⟩
  | .hbm, ⟨7, _⟩ => ⟨S2x132000, .i32⟩
  | .hbm, ⟨8, _⟩ => ⟨S132000x3, .f32⟩
  | .hbm, ⟨9, _⟩ => ⟨S132000x64, .f32⟩
  | .hbm, ⟨10, _⟩ => ⟨S1x64, .f32⟩
  | .hbm, ⟨11, _⟩ => ⟨S132000x64, .f32⟩
  | .hbm, ⟨12, _⟩ => ⟨S132000x64, .f32⟩
  | .hbm, ⟨13, _⟩ => ⟨S_, .f32⟩
  | .hbm, ⟨14, _⟩ => ⟨S132000x64, .f32⟩
  | .hbm, ⟨15, _⟩ => ⟨S132000x64, .f32⟩
  | .hbm, ⟨16, _⟩ => ⟨S1x64x64, .f32⟩
  | .hbm, ⟨17, _⟩ => ⟨S64x64, .f32⟩
  | .hbm, ⟨18, _⟩ => ⟨S132000x64, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S132000x64, .f32⟩
  | .hbm, ⟨23, _⟩ => ⟨S132000x64, .f32⟩
  | .hbm, ⟨24, _⟩ => ⟨S_, .f32⟩
  | .hbm, ⟨25, _⟩ => ⟨S132000x64, .f32⟩
  | .hbm, ⟨26, _⟩ => ⟨S132000x64, .f32⟩
  | .hbm, ⟨27, _⟩ => ⟨S1x64x64, .f32⟩
  | .hbm, ⟨28, _⟩ => ⟨S64x64, .f32⟩
  | .hbm, ⟨29, _⟩ => ⟨S132000x64, .f32⟩
  | .hbm, ⟨30, _⟩ => ⟨S1x64, .f32⟩
  | .hbm, ⟨31, _⟩ => ⟨S64, .f32⟩
  | .hbm, ⟨32, _⟩ => ⟨S1x64, .f32⟩
  | .hbm, ⟨33, _⟩ => ⟨S132000x64, .f32⟩
  | .hbm, ⟨34, _⟩ => ⟨S132000x64, .f32⟩
  | .hbm, ⟨35, _⟩ => ⟨S_, .f32⟩
  | .hbm, ⟨36, _⟩ => ⟨S132000x64, .f32⟩
  | .hbm, ⟨37, _⟩ => ⟨S132000x64, .f32⟩
  | .hbm, ⟨38, _⟩ => ⟨S1x64x64, .f32⟩
  | .hbm, ⟨39, _⟩ => ⟨S64x64, .f32⟩
  | .hbm, ⟨40, _⟩ => ⟨S132000x64, .f32⟩
  | .hbm, ⟨41, _⟩ => ⟨S1x64, .f32⟩
  | .hbm, ⟨42, _⟩ => ⟨S64, .f32⟩
  | .hbm, ⟨43, _⟩ => ⟨S1x64, .f32⟩
  | .hbm, ⟨44, _⟩ => ⟨S132000x64, .f32⟩
  | .hbm, ⟨45, _⟩ => ⟨S132000x64, .f32⟩
  | .hbm, ⟨46, _⟩ => ⟨S_, .f32⟩
  | .hbm, ⟨47, _⟩ => ⟨S132000x64, .f32⟩
  | .hbm, ⟨48, _⟩ => ⟨S132000x64, .f32⟩
  | .hbm, ⟨49, _⟩ => ⟨S132000x4, .f32⟩
  | .hbm, ⟨50, _⟩ => ⟨S1x4, .f32⟩
  | .hbm, ⟨51, _⟩ => ⟨S132000x4, .f32⟩
  | .hbm, ⟨52, _⟩ => ⟨S132000x4, .f32⟩
  | .hbm, ⟨53, _⟩ => ⟨S132000x2x2, .f32⟩
  | .hbm, ⟨54, _⟩ => ⟨S_, .f32⟩
  | .hbm, ⟨55, _⟩ => ⟨S132000x2, .f32⟩
  | .hbm, ⟨56, _⟩ => ⟨S_, .f32⟩
  | .hbm, ⟨57, _⟩ => ⟨S12000x12000, .f32⟩
  | .hbm, ⟨58, _⟩ => ⟨S_, .i32⟩
  | .hbm, ⟨59, _⟩ => ⟨S2x132000, .i32⟩
  | .hbm, ⟨60, _⟩ => ⟨S2x132000, .i32⟩
  | .hbm, ⟨61, _⟩ => ⟨S_, .i32⟩
  | .hbm, ⟨62, _⟩ => ⟨S2x132000, .i32⟩
  | .hbm, ⟨63, _⟩ => ⟨S2x132000, .i32⟩
  | .hbm, ⟨64, _⟩ => ⟨S1x132000, .i32⟩
  | .hbm, ⟨65, _⟩ => ⟨S132000, .i32⟩
  | .hbm, ⟨66, _⟩ => ⟨S1x132000, .i32⟩
  | .hbm, ⟨67, _⟩ => ⟨S132000, .i32⟩
  | .hbm, ⟨68, _⟩ => ⟨S132000x1, .f32⟩
  | .hbm, ⟨69, _⟩ => ⟨S132000, .f32⟩
  | .hbm, ⟨70, _⟩ => ⟨S_, .i32⟩
  | .hbm, ⟨71, _⟩ => ⟨S132000, .i32⟩
  | .hbm, ⟨72, _⟩ => ⟨S132000, .i1⟩
  | .hbm, ⟨73, _⟩ => ⟨S_, .i32⟩
  | .hbm, ⟨74, _⟩ => ⟨S132000, .i32⟩
  | .hbm, ⟨75, _⟩ => ⟨S132000, .i32⟩
  | .hbm, ⟨76, _⟩ => ⟨S132000, .i32⟩
  | .hbm, ⟨77, _⟩ => ⟨S_, .i32⟩
  | .hbm, ⟨78, _⟩ => ⟨S132000, .i32⟩
  | .hbm, ⟨79, _⟩ => ⟨S132000, .i1⟩
  | .hbm, ⟨80, _⟩ => ⟨S_, .i32⟩
  | .hbm, ⟨81, _⟩ => ⟨S132000, .i32⟩
  | .hbm, ⟨82, _⟩ => ⟨S132000, .i32⟩
  | .hbm, ⟨83, _⟩ => ⟨S132000, .i32⟩
  | .hbm, ⟨84, _⟩ => ⟨S132000x1, .i32⟩
  | .hbm, ⟨85, _⟩ => ⟨S132000x1, .i32⟩
  | .hbm, ⟨86, _⟩ => ⟨S132000x2, .i32⟩
  | .hbm, ⟨87, _⟩ => ⟨S12000x12000, .f32⟩
  | .hbm, ⟨88, _⟩ => ⟨S_, .i32⟩
  | .hbm, ⟨89, _⟩ => ⟨S2x132000, .i32⟩
  | .hbm, ⟨90, _⟩ => ⟨S2x132000, .i32⟩
  | .hbm, ⟨91, _⟩ => ⟨S_, .i32⟩
  | .hbm, ⟨92, _⟩ => ⟨S2x132000, .i32⟩
  | .hbm, ⟨93, _⟩ => ⟨S2x132000, .i32⟩
  | .hbm, ⟨94, _⟩ => ⟨S1x132000, .i32⟩
  | .hbm, ⟨95, _⟩ => ⟨S132000, .i32⟩
  | .hbm, ⟨96, _⟩ => ⟨S1x132000, .i32⟩
  | .hbm, ⟨97, _⟩ => ⟨S132000, .i32⟩
  | .hbm, ⟨98, _⟩ => ⟨S132000x1, .f32⟩
  | .hbm, ⟨99, _⟩ => ⟨S132000, .f32⟩
  | .hbm, ⟨100, _⟩ => ⟨S_, .i32⟩
  | .hbm, ⟨101, _⟩ => ⟨S132000, .i32⟩
  | .hbm, ⟨102, _⟩ => ⟨S132000, .i1⟩
  | .hbm, ⟨103, _⟩ => ⟨S_, .i32⟩
  | .hbm, ⟨104, _⟩ => ⟨S132000, .i32⟩
  | .hbm, ⟨105, _⟩ => ⟨S132000, .i32⟩
  | .hbm, ⟨106, _⟩ => ⟨S132000, .i32⟩
  | .hbm, ⟨107, _⟩ => ⟨S_, .i32⟩
  | .hbm, ⟨108, _⟩ => ⟨S132000, .i32⟩
  | .hbm, ⟨109, _⟩ => ⟨S132000, .i1⟩
  | .hbm, ⟨110, _⟩ => ⟨S_, .i32⟩
  | .hbm, ⟨111, _⟩ => ⟨S132000, .i32⟩
  | .hbm, ⟨112, _⟩ => ⟨S132000, .i32⟩
  | .hbm, ⟨113, _⟩ => ⟨S132000, .i32⟩
  | .hbm, ⟨114, _⟩ => ⟨S132000x1, .i32⟩
  | .hbm, ⟨115, _⟩ => ⟨S132000x1, .i32⟩
  | .hbm, ⟨116, _⟩ => ⟨S132000x2, .i32⟩
  | .hbm, ⟨117, _⟩ => ⟨S12000x12000, .f32⟩
  | _, _ => ⟨S6000x22x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call1_cst : Ref sig .tc := ⟨.hbm, 24, rfl⟩
abbrev main_call1_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call2_cst : Ref sig .tc := ⟨.hbm, 35, rfl⟩
abbrev main_call2_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call3_cst : Ref sig .tc := ⟨.hbm, 46, rfl⟩
abbrev main_call3_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst : Ref sig .tc := ⟨.hbm, 54, rfl⟩
abbrev main_v38 : Ref sig .tc := ⟨.hbm, 55, rfl⟩
abbrev main_cst_0 : Ref sig .tc := ⟨.hbm, 56, rfl⟩
abbrev main_v39 : Ref sig .tc := ⟨.hbm, 57, rfl⟩
abbrev main_c : Ref sig .tc := ⟨.hbm, 58, rfl⟩
abbrev main_v40 : Ref sig .tc := ⟨.hbm, 59, rfl⟩
abbrev main_v41 : Ref sig .tc := ⟨.hbm, 60, rfl⟩
abbrev main_c_1 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_2 : Ref sig .tc := ⟨.hbm, 70, rfl⟩
abbrev main_v50 : Ref sig .tc := ⟨.hbm, 71, rfl⟩
abbrev main_v51 : Ref sig .tc := ⟨.hbm, 72, rfl⟩
abbrev main_c_3 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_4 : Ref sig .tc := ⟨.hbm, 77, rfl⟩
abbrev main_v55 : Ref sig .tc := ⟨.hbm, 78, rfl⟩
abbrev main_v56 : Ref sig .tc := ⟨.hbm, 79, rfl⟩
abbrev main_c_5 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_6 : Ref sig .tc := ⟨.hbm, 88, rfl⟩
abbrev main_v64 : Ref sig .tc := ⟨.hbm, 89, rfl⟩
abbrev main_v65 : Ref sig .tc := ⟨.hbm, 90, rfl⟩
abbrev main_c_7 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_8 : Ref sig .tc := ⟨.hbm, 100, rfl⟩
abbrev main_v74 : Ref sig .tc := ⟨.hbm, 101, rfl⟩
abbrev main_v75 : Ref sig .tc := ⟨.hbm, 102, rfl⟩
abbrev main_c_9 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_10 : Ref sig .tc := ⟨.hbm, 107, rfl⟩
abbrev main_v79 : Ref sig .tc := ⟨.hbm, 108, rfl⟩
abbrev main_v80 : Ref sig .tc := ⟨.hbm, 109, rfl⟩
abbrev main_c_11 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩

abbrev nD : Nat := 1
abbrev τ : Topo := Topo.v7x

variable {F : FTy → Type} [FloatOps F]

class Facts₀ : Prop where
  shapeCasts_S6000x22x3_S132000x3 : S6000x22x3.ShapeCasts S132000x3
  bcast_S64_S1x64_1 : S64.BroadcastsInDim S1x64 (![1] : Fin 1 → Fin S1x64.rank)
  bcast_S1x64_S132000x64_0_1 : S1x64.BroadcastsInDim S132000x64 (![0, 1] : Fin 2 → Fin S132000x64.rank)
  bcast_S_S132000x64 : S_.BroadcastsInDim S132000x64 (![] : Fin 0 → Fin S132000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S4_S1x4_1 : S4.BroadcastsInDim S1x4 (![1] : Fin 1 → Fin S1x4.rank)
  bcast_S1x4_S132000x4_0_1 : S1x4.BroadcastsInDim S132000x4 (![0, 1] : Fin 2 → Fin S132000x4.rank)
  shapeCasts_S132000x4_S132000x2x2 : S132000x4.ShapeCasts S132000x2x2
  reducesTo_S132000x2x2_S132000x2_d1 : S132000x2x2.ReducesTo [1] S132000x2
  h_S_ : 0 < S_.numel
  bcast_S_S12000x12000 : S_.BroadcastsInDim S12000x12000 (![] : Fin 0 → Fin S12000x12000.rank)
  bcast_S_S2x132000 : S_.BroadcastsInDim S2x132000 (![] : Fin 0 → Fin S2x132000.rank)
  slices_S2x132000_S1x132000_0_0 : S2x132000.Slices ![0, 0] S1x132000
  shapeCasts_S1x132000_S132000 : S1x132000.ShapeCasts S132000
  slices_S2x132000_S1x132000_1_0 : S2x132000.Slices ![1, 0] S1x132000
  slices_S132000x2_S132000x1_0_0 : S132000x2.Slices ![0, 0] S132000x1
  shapeCasts_S132000x1_S132000 : S132000x1.ShapeCasts S132000
  bcast_S_S132000 : S_.BroadcastsInDim S132000 (![] : Fin 0 → Fin S132000.rank)
  bcast_S132000_S132000x1_0 : S132000.BroadcastsInDim S132000x1 (![0] : Fin 1 → Fin S132000x1.rank)
  concatenates_S132000x1_S132000x1_S132000x2_d1 : Shape.Concatenates [S132000x1, S132000x1] S132000x2 1
  slices_S132000x2_S132000x1_0_1 : S132000x2.Slices ![0, 1] S132000x1
  dot_S132000x3_S3x64_S132000x64_1_0_0_1_n_n_wf : DotDims.WF S132000x3 S3x64 S132000x64 [1] [0] [0] [1] [] []
  dot_S132000x64_S64x64_S132000x64_1_0_0_1_n_n_wf : DotDims.WF S132000x64 S64x64 S132000x64 [1] [0] [0] [1] [] []
  dot_S132000x64_S64x4_S132000x4_1_0_0_1_n_n_wf : DotDims.WF S132000x64 S64x4 S132000x4 [1] [0] [0] [1] [] []
  scatter_S12000x12000_S132000x2_S132000_n_01_01_1_wf : ScatterDims.WF S12000x12000 S132000x2 S132000 [] [0, 1] [0, 1] 1

variable [Facts₀]

def dot_S132000x3_S3x64_S132000x64_1_0_0_1_n_n : DotDims S132000x3 S3x64 S132000x64 where
  lhsContracting := [1]
  rhsContracting := [0]
  lhsNonContracting := [0]
  rhsNonContracting := [1]
  lhsBatch := []
  rhsBatch := []
  wf := dot_S132000x3_S3x64_S132000x64_1_0_0_1_n_n_wf
def dot_S132000x64_S64x64_S132000x64_1_0_0_1_n_n : DotDims S132000x64 S64x64 S132000x64 where
  lhsContracting := [1]
  rhsContracting := [0]
  lhsNonContracting := [0]
  rhsNonContracting := [1]
  lhsBatch := []
  rhsBatch := []
  wf := dot_S132000x64_S64x64_S132000x64_1_0_0_1_n_n_wf
def dot_S132000x64_S64x4_S132000x4_1_0_0_1_n_n : DotDims S132000x64 S64x4 S132000x4 where
  lhsContracting := [1]
  rhsContracting := [0]
  lhsNonContracting := [0]
  rhsNonContracting := [1]
  lhsBatch := []
  rhsBatch := []
  wf := dot_S132000x64_S64x4_S132000x4_1_0_0_1_n_n_wf
def scatter_S12000x12000_S132000x2_S132000_n_01_01_1 : ScatterDims S12000x12000 S132000x2 S132000 where
  updateWindowDims := []
  insertedWindowDims := [0, 1]
  scatterDimsToOperandDims := [0, 1]
  indexVectorDim := 1
  wf := scatter_S12000x12000_S132000x2_S132000_n_01_01_1_wf

class Facts : Prop extends Facts₀ where

variable [Facts]
-- ==== Proof.LibRowBlock.lean ====
/-
  Row blocks of a matrix under operations that treat rows independently, at the exact instance.

  A matrix `a` with `B` rows IS THE `t`-TH ROW BLOCK of a matrix `A` with the same columns when
  `a (p, j) = A (B·t + p, j)` for every row `p` of the block. Every operation that computes row `r` of its
  result from rows `r` of its operands alone sends row blocks to row blocks: a column slice, a concatenation
  along the columns, a pointwise operation, a constant splat, a bias row added to every row, and a product with a
  matrix on the right (row `r` of `L·R` is `∑ₖ L(r,k)·R(k,·)`). The lemmas below say so, one per operation,
  with the whole-matrix side spelt as a host program spells it and the block side as a kernel body does.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowBlock

open Idealize.ShloMosaic Idealize.ShloMosaic.ValueIdx

/-- `a` is rows `B·t, …, B·t + B − 1` of `A`. -/
def IsRows {α : Type} {N n : Nat} (B t : Nat) (A : (⟨2, ![N, n]⟩ : Shape).Idx → α) (a : (⟨2, ![B, n]⟩ : Shape).Idx → α) : Prop :=
  ∀ (p : Fin B) (j : Fin n) (r : Fin N), r.val = B * t + p.val → a (ix2 p j) = A (ix2 r j)

namespace IsRows

variable {α : Type} {N n B t : Nat}

/-! ## Layout -/

/-- Columns `o, …, o + m − 1` of a row block are the row block of those columns. -/
theorem slice {A : (⟨2, ![N, n]⟩ : Shape).Idx → α} {a : (⟨2, ![B, n]⟩ : Shape).Idx → α} (H : IsRows B t A a) (o m : Nat)
    (hA : (⟨2, ![N, n]⟩ : Shape).Slices ![0, o] ⟨2, ![N, m]⟩) (ha : (⟨2, ![B, n]⟩ : Shape).Slices ![0, o] ⟨2, ![B, m]⟩) :
    IsRows B t (extractStridedSlice ⟨2, ![N, m]⟩ ![0, o] A hA) (extractStridedSlice ⟨2, ![B, m]⟩ ![0, o] a ha) := by
  intro p j r hr
  rw [slice2_axis1_eq, slice2_axis1_eq]
  exact H p _ r hr

/-- A concatenation along the columns read at column `j`: piece `k`, whose columns start at `pre`, at column `j − pre`. -/
theorem concat_cols_apply {R n m : Nat} (xs : List ((s : Shape) × (s.Idx → α)))
    (h : Shape.Concatenates (xs.map (·.1)) ⟨2, ![R, n]⟩ 1)
    (k : Nat) (hk : k < xs.length) (x : (⟨2, ![R, m]⟩ : Shape).Idx → α) (hxk : xs[k] = ⟨⟨2, ![R, m]⟩, x⟩) (pre : Nat)
    (hpre : (((xs.take k).map (·.1)).map fun s => if h : s.rank = (⟨2, ![R, n]⟩ : Shape).rank
        then s.size ((1 : Fin (⟨2, ![R, n]⟩ : Shape).rank).cast h.symm) else 0).sum = pre)
    (r : Fin R) (j : Fin n) (j' : Fin m) (hj : pre + j'.val = j.val) :
    concatenate ⟨2, ![R, n]⟩ 1 xs h (ix2 r j) = x (ix2 r j') :=
  concatenate_apply_piece 1 xs h (ix2 r j) k hk _ x hxk rfl pre hpre (ix2 r j')
    (fun b hb => by
      match b with
      | ⟨0, _⟩ => rfl
      | ⟨1, _⟩ => exact absurd rfl hb) hj

/-- Two row blocks side by side are the row block of the two matrices side by side. -/
theorem concat2 {n₁ n₂ : Nat} {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    (H₁ : IsRows B t A₁ a₁) (H₂ : IsRows B t A₂ a₂) (hn : n = n₁ + n₂)
    (hA : Shape.Concatenates [(⟨2, ![N, n₁]⟩ : Shape), ⟨2, ![N, n₂]⟩] ⟨2, ![N, n]⟩ 1)
    (ha : Shape.Concatenates [(⟨2, ![B, n₁]⟩ : Shape), ⟨2, ![B, n₂]⟩] ⟨2, ![B, n]⟩ 1) :
    IsRows B t (concatenate ⟨2, ![N, n]⟩ 1 [⟨⟨2, ![N, n₁]⟩, A₁⟩, ⟨⟨2, ![N, n₂]⟩, A₂⟩] hA)
      (concatenate ⟨2, ![B, n]⟩ 1 [⟨⟨2, ![B, n₁]⟩, a₁⟩, ⟨⟨2, ![B, n₂]⟩, a₂⟩] ha) := by
  intro p j r hr
  by_cases hj : j.val < n₁
  · rw [concat_cols_apply [⟨⟨2, ![N, n₁]⟩, A₁⟩, ⟨⟨2, ![N, n₂]⟩, A₂⟩] hA 0 (by simp) A₁ rfl 0 rfl r j ⟨j.val, hj⟩ (Nat.zero_add _),
      concat_cols_apply [⟨⟨2, ![B, n₁]⟩, a₁⟩, ⟨⟨2, ![B, n₂]⟩, a₂⟩] ha 0 (by simp) a₁ rfl 0 rfl p j ⟨j.val, hj⟩ (Nat.zero_add _)]
    exact H₁ p _ r hr
  · have hj2 : j.val - n₁ < n₂ := by have := j.isLt; omega
    have hj3 : n₁ + (j.val - n₁) = j.val := by omega
    rw [concat_cols_apply [⟨⟨2, ![N, n₁]⟩, A₁⟩, ⟨⟨2, ![N, n₂]⟩, A₂⟩] hA 1 (by simp) A₂ rfl n₁ rfl r j ⟨j.val - n₁, hj2⟩ hj3,
      concat_cols_apply [⟨⟨2, ![B, n₁]⟩, a₁⟩, ⟨⟨2, ![B, n₂]⟩, a₂⟩] ha 1 (by simp) a₂ rfl n₁ rfl p j ⟨j.val - n₁, hj2⟩ hj3]
    exact H₂ p _ r hr

/-- Six row blocks side by side are the row block of the six matrices side by side. -/
theorem concat6 {n₁ n₂ n₃ n₄ n₅ n₆ : Nat}
    {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    {A₃ : (⟨2, ![N, n₃]⟩ : Shape).Idx → α} {a₃ : (⟨2, ![B, n₃]⟩ : Shape).Idx → α}
    {A₄ : (⟨2, ![N, n₄]⟩ : Shape).Idx → α} {a₄ : (⟨2, ![B, n₄]⟩ : Shape).Idx → α}
    {A₅ : (⟨2, ![N, n₅]⟩ : Shape).Idx → α} {a₅ : (⟨2, ![B, n₅]⟩ : Shape).Idx → α}
    {A₆ : (⟨2, ![N, n₆]⟩ : Shape).Idx → α} {a₆ : (⟨2, ![B, n₆]⟩ : Shape).Idx → α}
    (H₁ : IsRows B t A₁ a₁) (H₂ : IsRows B t A₂ a₂) (H₃ : IsRows B t A₃ a₃) (H₄ : IsRows B t A₄ a₄)
    (H₅ : IsRows B t A₅ a₅) (H₆ : IsRows B t A₆ a₆) (hn : n = n₁ + n₂ + n₃ + n₄ + n₅ + n₆)
    (hA : Shape.Concatenates [(⟨2, ![N, n₁]⟩ : Shape), ⟨2, ![N, n₂]⟩, ⟨2, ![N, n₃]⟩, ⟨2, ![N, n₄]⟩, ⟨2, ![N, n₅]⟩, ⟨2, ![N, n₆]⟩] ⟨2, ![N, n]⟩ 1)
    (ha : Shape.Concatenates [(⟨2, ![B, n₁]⟩ : Shape), ⟨2, ![B, n₂]⟩, ⟨2, ![B, n₃]⟩, ⟨2, ![B, n₄]⟩, ⟨2, ![B, n₅]⟩, ⟨2, ![B, n₆]⟩] ⟨2, ![B, n]⟩ 1) :
    IsRows B t
      (concatenate ⟨2, ![N, n]⟩ 1 [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA)
      (concatenate ⟨2, ![B, n]⟩ 1 [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha) := by
  intro p j r hr
  have hjn := j.isLt
  by_cases c₁ : j.val < n₁
  · rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 0 (by simp) A₁ rfl 0 rfl r j ⟨j.val, c₁⟩ (Nat.zero_add _),
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 0 (by simp) a₁ rfl 0 rfl p j ⟨j.val, c₁⟩ (Nat.zero_add _)]
    exact H₁ p _ r hr
  by_cases c₂ : j.val < n₁ + n₂
  · have hb : j.val - n₁ < n₂ := by omega
    have he : n₁ + (j.val - n₁) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 1 (by simp) A₂ rfl n₁ rfl r j ⟨j.val - n₁, hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 1 (by simp) a₂ rfl n₁ rfl p j ⟨j.val - n₁, hb⟩ he]
    exact H₂ p _ r hr
  by_cases c₃ : j.val < n₁ + n₂ + n₃
  · have hb : j.val - (n₁ + n₂) < n₃ := by omega
    have he : n₁ + n₂ + (j.val - (n₁ + n₂)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 2 (by simp) A₃ rfl (n₁ + n₂) (by simp) r j ⟨j.val - (n₁ + n₂), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 2 (by simp) a₃ rfl (n₁ + n₂) (by simp) p j ⟨j.val - (n₁ + n₂), hb⟩ he]
    exact H₃ p _ r hr
  by_cases c₄ : j.val < n₁ + n₂ + n₃ + n₄
  · have hb : j.val - (n₁ + n₂ + n₃) < n₄ := by omega
    have he : n₁ + n₂ + n₃ + (j.val - (n₁ + n₂ + n₃)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 3 (by simp) A₄ rfl (n₁ + n₂ + n₃) (by simp; omega) r j ⟨j.val - (n₁ + n₂ + n₃), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 3 (by simp) a₄ rfl (n₁ + n₂ + n₃) (by simp; omega) p j ⟨j.val - (n₁ + n₂ + n₃), hb⟩ he]
    exact H₄ p _ r hr
  by_cases c₅ : j.val < n₁ + n₂ + n₃ + n₄ + n₅
  · have hb : j.val - (n₁ + n₂ + n₃ + n₄) < n₅ := by omega
    have he : n₁ + n₂ + n₃ + n₄ + (j.val - (n₁ + n₂ + n₃ + n₄)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 4 (by simp) A₅ rfl (n₁ + n₂ + n₃ + n₄) (by simp; omega) r j ⟨j.val - (n₁ + n₂ + n₃ + n₄), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 4 (by simp) a₅ rfl (n₁ + n₂ + n₃ + n₄) (by simp; omega) p j ⟨j.val - (n₁ + n₂ + n₃ + n₄), hb⟩ he]
    exact H₅ p _ r hr
  · have hb : j.val - (n₁ + n₂ + n₃ + n₄ + n₅) < n₆ := by omega
    have he : n₁ + n₂ + n₃ + n₄ + n₅ + (j.val - (n₁ + n₂ + n₃ + n₄ + n₅)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 5 (by simp) A₆ rfl (n₁ + n₂ + n₃ + n₄ + n₅) (by simp; omega) r j ⟨j.val - (n₁ + n₂ + n₃ + n₄ + n₅), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 5 (by simp) a₆ rfl (n₁ + n₂ + n₃ + n₄ + n₅) (by simp; omega) p j ⟨j.val - (n₁ + n₂ + n₃ + n₄ + n₅), hb⟩ he]
    exact H₆ p _ r hr

/-- One row broadcast over all rows: its row block is the same row broadcast over the block's rows. -/
theorem bias (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![N, n]⟩ ![0, 1])
    (hc : (⟨1, ![n]⟩ : Shape).ShapeCasts ⟨2, ![1, n]⟩) (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ b hc) hb) := by
  intro p j r _
  rw [broadcastTo_1b_ab_apply, shapeCast_a_1a_apply]
  refine Eq.symm ((broadcastInDim_apply ![0, 1] h2 _ (ix2 r j) (ix2 (0 : Fin 1) j) fun a => ?_).trans
    (broadcastInDim_apply ![1] h1 b (ix2 (0 : Fin 1) j) (ix1 j) fun a => ?_))
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-! ## Pointwise operations at the exact instance -/

section Arith
variable {φ : FTy} {A A' : FVec Ideal ⟨2, ![N, n]⟩ φ} {a a' : FVec Ideal ⟨2, ![B, n]⟩ φ}

/-- A constant splat: every entry is the constant's value, in the matrix and in the block. -/
theorem splat (φ : FTy) (c : BitVec φ.bits) (h : (⟨0, ![]⟩ : Shape).BroadcastsInDim ⟨2, ![N, n]⟩ ![]) :
    IsRows B t (broadcastInDim ⟨2, ![N, n]⟩ ![] h (constant (F := Ideal) ⟨0, ![]⟩ φ c))
      (broadcast ⟨2, ![B, n]⟩ (Scalar.ofBits (F := Ideal) φ c)) :=
  fun _ _ _ _ => rfl

/-- A change of float format is the identity on extended reals. -/
theorem trunc {ψ : FTy} (H : IsRows B t A a) (h : ψ.bits < φ.bits) : IsRows B t A (truncf ψ a h) :=
  fun p j r hr => H p j r hr

theorem add (H : IsRows B t A a) (H' : IsRows B t A' a') : IsRows B t (addf A A') (addf a a') := by
  intro p j r hr
  rw [addf_apply, addf_apply, H p j r hr, H' p j r hr]

theorem mul (H : IsRows B t A a) (H' : IsRows B t A' a') : IsRows B t (mulf A A') (mulf a a') := by
  intro p j r hr
  rw [mulf_apply, mulf_apply, H p j r hr, H' p j r hr]

theorem sub (H : IsRows B t A a) (H' : IsRows B t A' a') : IsRows B t (subf A A') (subf a a') := by
  intro p j r hr
  rw [subf_apply, subf_apply, H p j r hr, H' p j r hr]

theorem maxf (H : IsRows B t A a) (H' : IsRows B t A' a') : IsRows B t (maximumf A A') (maximumf a a') := by
  intro p j r hr
  rw [maximumf_apply, maximumf_apply, H p j r hr, H' p j r hr]

theorem minf (H : IsRows B t A a) (H' : IsRows B t A' a') : IsRows B t (minimumf A A') (minimumf a a') := by
  intro p j r hr
  rw [minimumf_apply, minimumf_apply, H p j r hr, H' p j r hr]

/-- The host's exponential and the kernel's are one function of an extended real. -/
theorem expf (H : IsRows B t A a) : IsRows B t (Host.exp A) (exp a) := by
  intro p j r hr
  show Ideal.exp (a (ix2 p j)) = Ideal.exp (A (ix2 r j))
  rw [H p j r hr]

/-- The host's hyperbolic tangent and the kernel's are one function of an extended real. -/
theorem tanhf (H : IsRows B t A a) : IsRows B t (Host.tanh A) (tanh a) := by
  intro p j r hr
  show Ideal.tanh (a (ix2 p j)) = Ideal.tanh (A (ix2 r j))
  rw [H p j r hr]

end Arith

/-- The word of the float 1 denotes the real 1. -/
theorem ofBits_one_f32 : Ideal.ofBits .f32 0x3F800000#32 = 1 := by
  simp [Ideal.ofBits, Ideal.ieee, -EReal.coe_mul]; norm_num

/-- The logistic function `1 / (1 + e⁻ˣ)`: spelt out with a negation, an exponential, a sum and a quotient on the whole
    matrix, and as one operation on the block; the two are one function of an extended real by definition. -/
theorem sigmoid {A : FVec Ideal ⟨2, ![N, n]⟩ .f32} {a : FVec Ideal ⟨2, ![B, n]⟩ .f32} (H : IsRows B t A a)
    (h1 h2 : (⟨0, ![]⟩ : Shape).BroadcastsInDim ⟨2, ![N, n]⟩ ![]) :
    IsRows B t
      (Host.divf (broadcastInDim ⟨2, ![N, n]⟩ ![] h1 (constant (F := Ideal) ⟨0, ![]⟩ .f32 0x3F800000#32))
        (addf (broadcastInDim ⟨2, ![N, n]⟩ ![] h2 (constant (F := Ideal) ⟨0, ![]⟩ .f32 0x3F800000#32)) (Host.exp (Host.negf A))))
      (logistic a) := by
  intro p j r hr
  show Ideal.logistic (a (ix2 p j))
    = Ideal.div (Ideal.ofBits .f32 0x3F800000#32) (Ideal.ofBits .f32 0x3F800000#32 + Ideal.exp (-(A (ix2 r j))))
  rw [ofBits_one_f32, H p j r hr]
  rfl

/-! ## A product with a matrix on the right -/

/-- The dimension numbers of a plain product `[M, K] × [K, N]`: the left operand contracted on its columns, the right on
    its rows, no batch axis. -/
def Plain {sl sr so : Shape} (D : DotDims sl sr so) (l1 l0 : Fin sl.rank) (r0 r1 : Fin sr.rank) : Prop :=
  D.lhsContracting = [l1] ∧ D.rhsContracting = [r0] ∧ D.lhsNonContracting = [l0] ∧ D.rhsNonContracting = [r1]
    ∧ D.lhsBatch = [] ∧ D.rhsBatch = []

/-- A plain product read at an entry is the sum over the shared axis. -/
theorem dot_plain_sum {M K N' : Nat} (D : DotDims ⟨2, ![M, K]⟩ ⟨2, ![K, N']⟩ ⟨2, ![M, N']⟩) (hD : Plain D 1 0 0 1)
    (L : (⟨2, ![M, K]⟩ : Shape).Idx → EReal) (R : (⟨2, ![K, N']⟩ : Shape).Idx → EReal) (r : Fin M) (c : Fin N') :
    ∑ k : D.contr.Idx, L (D.lhsIdx (ix2 r c) k) * R (D.rhsIdx (ix2 r c) k) = ∑ k : Fin K, L (ix2 r k) * R (ix2 k c) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have l0 : ∀ q, ((DotDims.mk [1] [0] [0] [1] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have r1 : ∀ q, ((DotDims.mk [1] [0] [0] [1] [] [] wf).rhsIdx (ix2 r c) q 1).val = c.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [1] [0] [0] [1] [] [] wf).lhsIdx (ix2 r c) ((contrEquiv1 (DotDims.mk [1] [0] [0] [1] [] [] wf) K rfl rfl).symm k)
      = ix2 r k := funext fun a => Fin.ext (by
    match a with
    | ⟨0, _⟩ => exact l0 _
    | ⟨1, _⟩ => exact ((DotDims.mk [1] [0] [0] [1] [] [] wf).lhsIdx_val_of_single rfl _ _).trans hk)
  have er : (DotDims.mk [1] [0] [0] [1] [] [] wf).rhsIdx (ix2 r c) ((contrEquiv1 (DotDims.mk [1] [0] [0] [1] [] [] wf) K rfl rfl).symm k)
      = ix2 k c := funext fun a => Fin.ext (by
    match a with
    | ⟨0, _⟩ => exact ((DotDims.mk [1] [0] [0] [1] [] [] wf).rhsIdx_val_of_single rfl _ _).trans hk
    | ⟨1, _⟩ => exact r1 _)
  rw [el, er]

/-- Rows of `L·R` depend on the same rows of `L` only: the host's product of the whole matrix against the kernel's
    product of the block into a zero accumulator, the right operand the same matrix on both sides. -/
theorem dot {K M : Nat} {φ₁ φ₂ : FTy} {L : FVec Ideal ⟨2, ![N, K]⟩ .f32} {l : FVec Ideal ⟨2, ![B, K]⟩ φ₁} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R : FVec Ideal ⟨2, ![K, M]⟩ .f32) (r : FVec Ideal ⟨2, ![K, M]⟩ φ₂) (hR : ∀ k j, r (ix2 k j) = R (ix2 k j)) :
    IsRows B t (Host.dotGeneral D none L R) (matmul d none l r (constant ⟨2, ![B, M]⟩ .f32 0x00000000#32)) := by
  intro p j r' hr
  simp only [Host.dotGeneral, matmul]
  rw [Ideal.matmul_constant_zero_apply, Ideal.dotGeneral_apply, dot_plain_sum d hd, dot_plain_sum D hD]
  exact Finset.sum_congr rfl fun k _ => by rw [H p k r' hr, hR]

end IsRows

end Cert.RowBlock

end
-- ==== Proof.LibRowDense.lean ====
/-
  A dense layer on a row block, at the exact instance.

  On top of the row-block lemmas: a cast of a block to its own shape is the block; an affine layer
  `L·W + b` and a rectifier `max(·, 0)` send row blocks to row blocks, the whole-matrix side spelt as a host
  program spells it (a `dot_general`, the bias broadcast in two steps, a `maximum` against a splat zero) and the
  block side as a kernel body does (a product into a zero accumulator of operands changed to another float
  format, the bias row cast and broadcast, a `maximumf` against a scalar splat). Also: a load of one unit slab
  (or one row) of a staged buffer is the host's slice of that slab (row).
-/
import proofs.«122925_j11347303596498_1_alg».proof.Proof.LibRowBlock
import Idealize.ShloMosaic.Lib.Pipeline.FrameBody

noncomputable section

namespace Cert.RowBlock

open Idealize.ShloMosaic Idealize.ShloMosaic.ValueIdx

namespace IsRows

variable {N n B t : Nat}

/-- A cast of a block to its own shape is the block. -/
theorem castSelf {α : Type} {A : (⟨2, ![N, n]⟩ : Shape).Idx → α} {a : (⟨2, ![B, n]⟩ : Shape).Idx → α} (H : IsRows B t A a)
    (h : (⟨2, ![B, n]⟩ : Shape).ShapeCasts ⟨2, ![B, n]⟩) : IsRows B t A (shapeCast ⟨2, ![B, n]⟩ a h) := by
  rw [shapeCast_self]; exact H

/-- An affine layer: rows of `L·W + b` are `l·w + b'` on the block, when the block's right operand `w` reads as `W` and its
    bias row `b'` is `b`. -/
theorem affine {K M : Nat} {φ₁ φ₂ : FTy} {L : FVec Ideal ⟨2, ![N, K]⟩ .f32} {l : FVec Ideal ⟨2, ![B, K]⟩ φ₁} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (W : FVec Ideal ⟨2, ![K, M]⟩ .f32) (w : FVec Ideal ⟨2, ![K, M]⟩ φ₂) (hw : ∀ k j, w (ix2 k j) = W (ix2 k j))
    (b b' : FVec Ideal ⟨1, ![M]⟩ .f32) (hb' : b' = b)
    (h1 : (⟨1, ![M]⟩ : Shape).BroadcastsInDim ⟨2, ![1, M]⟩ ![1]) (h2 : (⟨2, ![1, M]⟩ : Shape).BroadcastsInDim ⟨2, ![N, M]⟩ ![0, 1])
    (hc : (⟨1, ![M]⟩ : Shape).ShapeCasts ⟨2, ![1, M]⟩) (hb : (⟨2, ![1, M]⟩ : Shape).Broadcasts ⟨2, ![B, M]⟩) :
    IsRows B t
      (addf (Host.dotGeneral D none L W) (broadcastInDim ⟨2, ![N, M]⟩ ![0, 1] h2 (broadcastInDim ⟨2, ![1, M]⟩ ![1] h1 b)))
      (addf (matmul d none l w (constant ⟨2, ![B, M]⟩ .f32 0x00000000#32)) (broadcastTo ⟨2, ![B, M]⟩ (shapeCast ⟨2, ![1, M]⟩ b' hc) hb)) := by
  subst hb'
  exact (H.dot D d hD hd W w hw).add (bias b' h1 h2 hc hb)

/-- The rectifier: `max(·, 0)` against a splat zero, on the matrix and on the block. -/
theorem relu {A : FVec Ideal ⟨2, ![N, n]⟩ .f32} {a : FVec Ideal ⟨2, ![B, n]⟩ .f32} (H : IsRows B t A a)
    (h0 : (⟨0, ![]⟩ : Shape).BroadcastsInDim ⟨2, ![N, n]⟩ ![]) :
    IsRows B t (maximumf A (broadcastInDim ⟨2, ![N, n]⟩ ![] h0 (constant (F := Ideal) ⟨0, ![]⟩ .f32 0x00000000#32)))
      (maximumf a (broadcast ⟨2, ![B, n]⟩ (Scalar.ofBits (F := Ideal) .f32 0x00000000#32))) :=
  H.maxf (splat .f32 _ h0)

end IsRows

/-! ## A load of one slab of a staged buffer -/

/-- The load of slab `i` of a `[m, a, b]` buffer, as a `[1, a, b]` vector, is the host's slice of that slab. -/
theorem ld_slab {Val : EltTy → Type} {e : EltTy} {m a b : Nat} (i : Nat) (X : (⟨3, ![m, a, b]⟩ : Shape).Idx → Val e)
    (inb : ∀ x, (![i, 0, 0] : Fin 3 → Nat) x + (![1, a, b] : Fin 3 → Nat) x ≤ (⟨3, ![m, a, b]⟩ : Shape).size x)
    (h : (⟨3, ![m, a, b]⟩ : Shape).Slices ![i, 0, 0] ⟨3, ![1, a, b]⟩) :
    (View.ld X (Rect.unit (s := ⟨3, ![m, a, b]⟩) ![i, 0, 0] ![1, a, b] inb) : (⟨3, ![1, a, b]⟩ : Shape).Idx → Val e)
      = extractStridedSlice ⟨3, ![1, a, b]⟩ ![i, 0, 0] X h := by
  funext y
  unfold extractStridedSlice
  refine congrArg X (funext fun x => Fin.ext ?_)
  match x with
  | ⟨0, _⟩ => show i + 1 * (y 0).val = i + (y 0).val; omega
  | ⟨1, _⟩ => show 0 + 1 * (y 1).val = 0 + (y 1).val; omega
  | ⟨2, _⟩ => show 0 + 1 * (y 2).val = 0 + (y 2).val; omega

/-- The load of row `i` of a `[m, a]` buffer, as a `[1, a]` vector, is the host's slice of that row. -/
theorem ld_row {Val : EltTy → Type} {e : EltTy} {m a : Nat} (i : Nat) (X : (⟨2, ![m, a]⟩ : Shape).Idx → Val e)
    (inb : ∀ x, (![i, 0] : Fin 2 → Nat) x + (![1, a] : Fin 2 → Nat) x ≤ (⟨2, ![m, a]⟩ : Shape).size x)
    (h : (⟨2, ![m, a]⟩ : Shape).Slices ![i, 0] ⟨2, ![1, a]⟩) :
    (View.ld X (Rect.unit (s := ⟨2, ![m, a]⟩) ![i, 0] ![1, a] inb) : (⟨2, ![1, a]⟩ : Shape).Idx → Val e)
      = extractStridedSlice ⟨2, ![1, a]⟩ ![i, 0] X h := by
  funext y
  unfold extractStridedSlice
  refine congrArg X (funext fun x => Fin.ext ?_)
  match x with
  | ⟨0, _⟩ => show i + 1 * (y 0).val = i + (y 0).val; omega
  | ⟨1, _⟩ => show 0 + 1 * (y 1).val = 0 + (y 1).val; omega

end Cert.RowBlock

end
-- ==== Proof.KernelRows.lean ====
/-
  The kernel's body on a block of 6000 rows against the reference's stages on all 132000 rows.

  Both programs push each row of the flattened input through the same perceptron: an affine layer 3 → 64, three
  affine layers 64 → 64 and an affine layer 64 → 4, a rectifier after each of the first four, and then add
  columns `j` and `2 + j` of the four outputs (`j = 0, 1`). Every one of these operations computes row `r` of its
  result from row `r` of its operand and from weights that do not depend on the row, so if the kernel's input block
  is rows `6000·t, …` of the flattened input, every intermediate block is the same rows of the reference's intermediate
  matrix, and so is the block the kernel stores. The reference spells the last step as a cast of `[132000, 4]` to
  `[132000, 2, 2]` summed over the middle axis from zero: entry `(r, j)` is `0 + (out(r, j) + out(r, 2 + j))`.

  Stated over plain variables: the argument arrays `A0 … A6`, the input block `x0`, and the two bias rows `x2`, `x6`
  as the host reshapes them to `[1, 64]` and `[1, 4]` before the launch.
-/
import proofs.«122925_j11347303596498_1_alg».proof.Proof.LibRowDense
import proofs.«122925_j11347303596498_1_alg».proof.Proof.Gen.KernelIdeal.Frame
import proofs.«122925_j11347303596498_1_alg».proof.Proof.Gen.ReferenceIdeal.Read

noncomputable section

namespace Cert.KernelIdeal.Rows

open Idealize.ShloMosaic Idealize.ShloMosaic.ValueIdx Cert.RowBlock
open Cert.KernelIdeal Cert.KernelIdeal.Gen
open Cert.ReferenceIdeal.Read

variable (A0 : Vec Ideal S6000x22x3 .f32) (A1 : Vec Ideal S3x64 .f32) (A2 : Vec Ideal S64 .f32)
  (A3 : Vec Ideal S3x64x64 .f32) (A4 : Vec Ideal S3x64 .f32) (A5 : Vec Ideal S64x4 .f32) (A6 : Vec Ideal S4 .f32)

theorem zero2 : (![0, 0] : Fin 2 → Nat) = fun _ => 0 := funext fun a => by fin_cases a <;> rfl

/-- The last step: the reference's sum over the middle axis of the outputs cast to `[132000, 2, 2]`, started from zero,
    against the kernel's sum of the two column halves of its block of outputs. -/
theorem halves_rows (t : Nat) (a : FVec Ideal S6000x4 .f32)
    (H : IsRows 6000 t (val_main_v36 (F := Ideal) A0 A1 A2 A3 A4 A5 A6) a) :
    IsRows 6000 t (val_main_v38 (F := Ideal) A0 A1 A2 A3 A4 A5 A6)
      (addf (extractStridedSlice S6000x2 ![0, 0] a slices_S6000x4_o0_0_S6000x2)
        (extractStridedSlice S6000x2 ![0, 2] a slices_S6000x4_o0_2_S6000x2) : FVec Ideal S6000x2 .f32) := by
  intro p j r hr
  have hj : j.val < 2 := j.isLt
  have z : val_main_cst (F := Ideal) (Shape.Idx.first Cert.ReferenceIdeal.Facts₀.h_S_) = 0 := by
    show Ideal.ofBits .f32 0x00000000#32 = 0
    exact Ideal.ofBits_zero_f32
  have e0 : idx_main_v37 (idx_main_v38 (ix2 r j) 0) = ix2 r (⟨0 + j.val, by omega⟩ : Fin 4) := funext fun x => Fin.ext (by
    match x with
    | ⟨0, _⟩ => show ((r.val * 2 + 0) * 2 + j.val) / 4 = r.val; omega
    | ⟨1, _⟩ => show ((r.val * 2 + 0) * 2 + j.val) % 4 = 0 + j.val; omega)
  have e1 : idx_main_v37 (idx_main_v38 (ix2 r j) 1) = ix2 r (⟨2 + j.val, by omega⟩ : Fin 4) := funext fun x => Fin.ext (by
    match x with
    | ⟨0, _⟩ => show ((r.val * 2 + 1) * 2 + j.val) / 4 = r.val; omega
    | ⟨1, _⟩ => show ((r.val * 2 + 1) * 2 + j.val) % 4 = 2 + j.val; omega)
  rw [addf_apply, slice2_axis1_eq, slice2_axis1_eq, H p _ r hr, H p _ r hr, val_main_v38_apply, Fin.sum_univ_two,
    val_main_v37_apply, val_main_v37_apply, z, e0, e1]
  exact (zero_add _).symm

/-- The first bias row: the kernel loads the host's `[1, 64]` reshape of the bias and casts it back to `[64]`. -/
theorem bias_in (x2 : Vec Ideal S1x64 .f32) (hx2 : x2 = shapeCast S1x64 A2 shapeCasts_S64_S1x64) :
    shapeCast S64 (View.ld x2 r0_2) shapeCasts_S1x64_S64 = A2 := by
  subst hx2
  exact (congrArg (fun v : Vec Ideal S1x64 .f32 => shapeCast S64 v shapeCasts_S1x64_S64)
    (View.ld_unit_zero (S := S1x64) zero2 inb_S1x64_S1x64_0_0 _)).trans (shapeCast_shapeCast A2 _ _)

/-- The last bias row, the same way through `[1, 4]`. -/
theorem bias_out (x6 : Vec Ideal S1x4 .f32) (hx6 : x6 = shapeCast S1x4 A6 shapeCasts_S4_S1x4) :
    shapeCast S4 (View.ld x6 r0_10) shapeCasts_S1x4_S4 = A6 := by
  subst hx6
  exact (congrArg (fun v : Vec Ideal S1x4 .f32 => shapeCast S4 v shapeCasts_S1x4_S4)
    (View.ld_unit_zero (S := S1x4) zero2 inb_S1x4_S1x4_0_0 _)).trans (shapeCast_shapeCast A6 _ _)

/-- The kernel's stored block is the same rows of the reference's summed outputs as its input block is of the flattened
    input. -/
theorem payload_rows (t : Nat) (x0 : Vec Ideal S6000x3 .f32) (x2 : Vec Ideal S1x64 .f32) (x6 : Vec Ideal S1x4 .f32)
    (H0 : IsRows 6000 t (val_main_v0 (F := Ideal) A0) x0)
    (hx2 : x2 = shapeCast S1x64 A2 shapeCasts_S64_S1x64) (hx6 : x6 = shapeCast S1x4 A6 shapeCasts_S4_S1x4) :
    IsRows 6000 t (val_main_v38 (F := Ideal) A0 A1 A2 A3 A4 A5 A6)
      (k0_pay1 (F := Ideal)
        (k0_pay2 (F := Ideal) (View.ld x0 r0_0) (View.ld A1 r0_1) (View.ld x2 r0_2) (View.ld A3 r0_3) (View.ld A4 r0_4)
          (View.ld A3 r0_5) (View.ld A4 r0_6))
        (View.ld A3 r0_7) (View.ld A4 r0_8) (View.ld A5 r0_9) (View.ld x6 r0_10)) := by
  have H0' : IsRows 6000 t (val_main_v0 (F := Ideal) A0) (View.ld x0 r0_0) := by
    rw [View.ld_unit_zero (S := S6000x3) zero2]; exact H0
  -- 3 → 64
  have H4 : IsRows 6000 t (val_main_v4 (F := Ideal) A0 A1 A2) _ :=
    ((H0'.castSelf shapeCasts_S6000x3_S6000x3).trunc bitsLt_bf16_f32).affine
      Cert.ReferenceIdeal.dot_S132000x3_S3x64_S132000x64_1_0_0_1_n_n dot_S6000x3_S3x64_S6000x64_1_0_0_1_n_n
      ⟨rfl, rfl, rfl, rfl, rfl, rfl⟩ ⟨rfl, rfl, rfl, rfl, rfl, rfl⟩
      A1 (truncf .bf16 (View.ld A1 r0_1) bitsLt_bf16_f32)
      (fun k j => congrFun (View.ld_unit_zero (S := S3x64) zero2 inb_S3x64_S3x64_0_0 A1) (ix2 k j))
      A2 (shapeCast S64 (View.ld x2 r0_2) shapeCasts_S1x64_S64)
      (bias_in A2 x2 hx2)
      Cert.ReferenceIdeal.Facts₀.bcast_S64_S1x64_1 Cert.ReferenceIdeal.Facts₀.bcast_S1x64_S132000x64_0_1
      shapeCasts_S64_S1x64 broadcasts_S1x64_S6000x64
  have H5 : IsRows 6000 t (val_main_v5 (F := Ideal) A0 A1 A2) _ := H4.relu Cert.ReferenceIdeal.Facts₀.bcast_S_S132000x64
  -- 64 → 64, slab 0
  have H13 : IsRows 6000 t (val_main_v13 (F := Ideal) A0 A1 A2 A3 A4) _ :=
    (H5.trunc bitsLt_bf16_f32).affine
      Cert.ReferenceIdeal.dot_S132000x64_S64x64_S132000x64_1_0_0_1_n_n dot_S6000x64_S64x64_S6000x64_1_0_0_1_n_n
      ⟨rfl, rfl, rfl, rfl, rfl, rfl⟩ ⟨rfl, rfl, rfl, rfl, rfl, rfl⟩
      (val_main_v7 (F := Ideal) A3) (truncf .bf16 (shapeCast S64x64 (View.ld A3 r0_3) shapeCasts_S1x64x64_S64x64) bitsLt_bf16_f32)
      (fun k j => congrFun (congrArg (fun v => shapeCast S64x64 v shapeCasts_S1x64x64_S64x64)
        (ld_slab 0 A3 inb_S3x64x64_S1x64x64_0_0_0 Cert.ReferenceIdeal.Facts₀.slices_S3x64x64_S1x64x64_0_0_0)) (ix2 k j))
      (val_main_v10 (F := Ideal) A4) (shapeCast S64 (View.ld A4 r0_4) shapeCasts_S1x64_S64)
      (congrArg (fun v => shapeCast S64 v shapeCasts_S1x64_S64)
        (ld_row 0 A4 inb_S3x64_S1x64_0_0 Cert.ReferenceIdeal.Facts₀.slices_S3x64_S1x64_0_0))
      Cert.ReferenceIdeal.Facts₀.bcast_S64_S1x64_1 Cert.ReferenceIdeal.Facts₀.bcast_S1x64_S132000x64_0_1
      shapeCasts_S64_S1x64 broadcasts_S1x64_S6000x64
  have H14 : IsRows 6000 t (val_main_v14 (F := Ideal) A0 A1 A2 A3 A4) _ := H13.relu Cert.ReferenceIdeal.Facts₀.bcast_S_S132000x64
  -- 64 → 64, slab 1
  have H22 : IsRows 6000 t (val_main_v22 (F := Ideal) A0 A1 A2 A3 A4) _ :=
    (H14.trunc bitsLt_bf16_f32).affine
      Cert.ReferenceIdeal.dot_S132000x64_S64x64_S132000x64_1_0_0_1_n_n dot_S6000x64_S64x64_S6000x64_1_0_0_1_n_n
      ⟨rfl, rfl, rfl, rfl, rfl, rfl⟩ ⟨rfl, rfl, rfl, rfl, rfl, rfl⟩
      (val_main_v16 (F := Ideal) A3) (truncf .bf16 (shapeCast S64x64 (View.ld A3 r0_5) shapeCasts_S1x64x64_S64x64) bitsLt_bf16_f32)
      (fun k j => congrFun (congrArg (fun v => shapeCast S64x64 v shapeCasts_S1x64x64_S64x64)
        (ld_slab 1 A3 inb_S3x64x64_S1x64x64_1_0_0 Cert.ReferenceIdeal.Facts₀.slices_S3x64x64_S1x64x64_1_0_0)) (ix2 k j))
      (val_main_v19 (F := Ideal) A4) (shapeCast S64 (View.ld A4 r0_6) shapeCasts_S1x64_S64)
      (congrArg (fun v => shapeCast S64 v shapeCasts_S1x64_S64)
        (ld_row 1 A4 inb_S3x64_S1x64_1_0 Cert.ReferenceIdeal.Facts₀.slices_S3x64_S1x64_1_0))
      Cert.ReferenceIdeal.Facts₀.bcast_S64_S1x64_1 Cert.ReferenceIdeal.Facts₀.bcast_S1x64_S132000x64_0_1
      shapeCasts_S64_S1x64 broadcasts_S1x64_S6000x64
  have H23 : IsRows 6000 t (val_main_v23 (F := Ideal) A0 A1 A2 A3 A4) _ := H22.relu Cert.ReferenceIdeal.Facts₀.bcast_S_S132000x64
  -- 64 → 64, slab 2
  have H31 : IsRows 6000 t (val_main_v31 (F := Ideal) A0 A1 A2 A3 A4) _ :=
    (H23.trunc bitsLt_bf16_f32).affine
      Cert.ReferenceIdeal.dot_S132000x64_S64x64_S132000x64_1_0_0_1_n_n dot_S6000x64_S64x64_S6000x64_1_0_0_1_n_n
      ⟨rfl, rfl, rfl, rfl, rfl, rfl⟩ ⟨rfl, rfl, rfl, rfl, rfl, rfl⟩
      (val_main_v25 (F := Ideal) A3) (truncf .bf16 (shapeCast S64x64 (View.ld A3 r0_7) shapeCasts_S1x64x64_S64x64) bitsLt_bf16_f32)
      (fun k j => congrFun (congrArg (fun v => shapeCast S64x64 v shapeCasts_S1x64x64_S64x64)
        (ld_slab 2 A3 inb_S3x64x64_S1x64x64_2_0_0 Cert.ReferenceIdeal.Facts₀.slices_S3x64x64_S1x64x64_2_0_0)) (ix2 k j))
      (val_main_v28 (F := Ideal) A4) (shapeCast S64 (View.ld A4 r0_8) shapeCasts_S1x64_S64)
      (congrArg (fun v => shapeCast S64 v shapeCasts_S1x64_S64)
        (ld_row 2 A4 inb_S3x64_S1x64_2_0 Cert.ReferenceIdeal.Facts₀.slices_S3x64_S1x64_2_0))
      Cert.ReferenceIdeal.Facts₀.bcast_S64_S1x64_1 Cert.ReferenceIdeal.Facts₀.bcast_S1x64_S132000x64_0_1
      shapeCasts_S64_S1x64 broadcasts_S1x64_S6000x64
  have H32 : IsRows 6000 t (val_main_v32 (F := Ideal) A0 A1 A2 A3 A4) _ := H31.relu Cert.ReferenceIdeal.Facts₀.bcast_S_S132000x64
  -- 64 → 4
  have H36 : IsRows 6000 t (val_main_v36 (F := Ideal) A0 A1 A2 A3 A4 A5 A6) _ :=
    (H32.trunc bitsLt_bf16_f32).affine
      Cert.ReferenceIdeal.dot_S132000x64_S64x4_S132000x4_1_0_0_1_n_n dot_S6000x64_S64x4_S6000x4_1_0_0_1_n_n
      ⟨rfl, rfl, rfl, rfl, rfl, rfl⟩ ⟨rfl, rfl, rfl, rfl, rfl, rfl⟩
      A5 (truncf .bf16 (View.ld A5 r0_9) bitsLt_bf16_f32)
      (fun k j => congrFun (View.ld_unit_zero (S := S64x4) zero2 inb_S64x4_S64x4_0_0 A5) (ix2 k j))
      A6 (shapeCast S4 (View.ld x6 r0_10) shapeCasts_S1x4_S4)
      (bias_out A6 x6 hx6)
      Cert.ReferenceIdeal.Facts₀.bcast_S4_S1x4_1 Cert.ReferenceIdeal.Facts₀.bcast_S1x4_S132000x4_0_1
      shapeCasts_S4_S1x4 broadcasts_S1x4_S6000x4
  exact halves_rows A0 A1 A2 A3 A4 A5 A6 t _ H36

/-- The same, read at one entry: entry `y` of the stored block is the reference's summed output at row `6000·t + y₀`,
    column `y₁`. -/
theorem payload_at (t : Nat) (x0 : Vec Ideal S6000x3 .f32) (x2 : Vec Ideal S1x64 .f32) (x6 : Vec Ideal S1x4 .f32)
    (H0 : IsRows 6000 t (val_main_v0 (F := Ideal) A0) x0)
    (hx2 : x2 = shapeCast S1x64 A2 shapeCasts_S64_S1x64) (hx6 : x6 = shapeCast S1x4 A6 shapeCasts_S4_S1x4)
    (y : S6000x2.Idx) (i : S132000x2.Idx) (h0 : (i 0).val = 6000 * t + (y 0).val) (h1 : (i 1).val = (y 1).val) :
    k0_pay1 (F := Ideal)
        (k0_pay2 (F := Ideal) (View.ld x0 r0_0) (View.ld A1 r0_1) (View.ld x2 r0_2) (View.ld A3 r0_3) (View.ld A4 r0_4)
          (View.ld A3 r0_5) (View.ld A4 r0_6))
        (View.ld A3 r0_7) (View.ld A4 r0_8) (View.ld A5 r0_9) (View.ld x6 r0_10) y
      = val_main_v38 (F := Ideal) A0 A1 A2 A3 A4 A5 A6 i := by
  obtain ⟨p, j, rfl⟩ : ∃ (p : Fin 6000) (j : Fin 2), y = ix2 p j := ⟨y 0, y 1, eq_ix2 y⟩
  obtain ⟨r, j', rfl⟩ : ∃ (r : Fin 132000) (j' : Fin 2), i = ix2 r j' := ⟨i 0, i 1, eq_ix2 i⟩
  obtain rfl : j' = j := Fin.ext h1
  exact payload_rows A0 A1 A2 A3 A4 A5 A6 t x0 x2 x6 H0 hx2 hx6 p j' r h0

end Cert.KernelIdeal.Rows

end
-- ==== Proof.KernelValue.lean ====
/-
  What the kernel's output array holds after the run.

  The grid has 22 points. At point `t` the input window's block is rows `6000·t … 6000·t + 5999` of the flattened
  input `[132000, 3]`; the six weight and bias windows are whole arrays, the same block (index zero) at every point;
  the output window's block is rows `6000·t …` of the `[132000, 2]` output. So what point `t` writes back is block `t`
  of ONE array: the reference's summed outputs of the argument arrays (the body's rows are the reference's rows,
  the preceding module), the 22 blocks tile the output (row `r` is in block `r / 6000`), and the output array ends
  holding that array.
-/
import proofs.«122925_j11347303596498_1_alg».proof.Proof.KernelRows
import Idealize.ShloMosaic.Lib.Pipeline.Value
import Idealize.ShloMosaic.Lib.StableHlo.Run

set_option maxRecDepth 16384

noncomputable section

namespace Cert.KernelIdeal.Rows

open Idealize.ShloMosaic Idealize.ShloMosaic.TcCoe Idealize.ShloMosaic.ValueIdx Idealize.SL.Sem Cert.RowBlock
open Idealize.ShloMosaic.Pipeline (Dat)
open Cert.KernelIdeal Cert.KernelIdeal.Gen
open Cert.ReferenceIdeal.Read

variable (m : (ℓ : Loc nD τ sig) → Buf (Elt Ideal) ℓ)

/-- The reference's summed outputs `[132000, 2]` of the kernel's argument arrays as launched. -/
abbrev rowVals (c : Dev nD) : FVec Ideal S132000x2 .f32 :=
  val_main_v38 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-! ## The index maps, decided over the grid -/

/-- The input's and the output's block index at point `t` is `(t, 0)`; every other window's is zero. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The arrays the region finds: three of them reshaped by the host before the launch -/

theorem V_v0 (c : Dev nD) : (V m c main_v0 : FVec Ideal S132000x3 .f32)
    = val_main_v0 (F := Ideal) (m ((c : Thread nD τ).loc main_arg0)) := by
  show StableHlo.after hostOps0 (fun b => m (c, b)) (Proc.devRef .tc main_v0) = _
  after_results; rfl

theorem V_v1 (c : Dev nD) : (V m c main_v1 : FVec Ideal S1x64 .f32)
    = shapeCast S1x64 (m ((c : Thread nD τ).loc main_arg2)) shapeCasts_S64_S1x64 := by
  show StableHlo.after hostOps0 (fun b => m (c, b)) (Proc.devRef .tc main_v1) = _
  after_results; rfl

theorem V_v2 (c : Dev nD) : (V m c main_v2 : FVec Ideal S1x4 .f32)
    = shapeCast S1x4 (m ((c : Thread nD τ).loc main_arg6)) shapeCasts_S4_S1x4 := by
  show StableHlo.after hostOps0 (fun b => m (c, b)) (Proc.devRef .tc main_v2) = _
  after_results; rfl

/-! ## The windows' blocks -/

/-- The input window's block at point `t` is rows `6000·t, …` of the flattened input. -/
theorem xblk_rows (c : Dev nD) (t : Fin cfg0.N) :
    IsRows 6000 t.val (val_main_v0 (F := Ideal) (m ((c : Thread nD τ).loc main_arg0))) (iblk m c 0 t : Vec Ideal S6000x3 .f32) := by
  intro p j r hr
  obtain ⟨e0, e1, -⟩ := idx_facts t
  refine Eq.trans ?_ (congrFun (V_v0 m c) (ix2 r j))
  unfold iblk
  rw [View.read_apply]
  show V m c main_v0 _ = V m c main_v0 _
  congr 1
  funext a
  apply Fin.ext
  match a with
  | ⟨0, _⟩ => show win0_0.index t (0 : Fin 2) * 6000 + 1 * p.val = r.val; rw [e0, hr]; omega
  | ⟨1, _⟩ => show win0_0.index t (1 : Fin 2) * 3 + 1 * j.val = j.val; rw [e1]; omega

/-- A weight or bias window's block, at every point, is its whole array. -/
theorem blk1 (c : Dev nD) (t : Fin cfg0.N) : (iblk m c 1 t : Vec Ideal S3x64 .f32) = m ((c : Thread nD τ).loc main_arg1) := by
  obtain ⟨-, -, -, -, e0, e1, -⟩ := idx_facts t
  refine Eq.trans (funext fun y => ?_) (V_main_arg1 m c)
  unfold iblk
  rw [View.read_apply]
  show V m c main_arg1 _ = V m c main_arg1 y
  congr 1
  funext a
  apply Fin.ext
  match a with
  | ⟨0, _⟩ => show win0_1.index t (0 : Fin 2) * 3 + 1 * (y 0).val = (y 0).val; rw [e0]; omega
  | ⟨1, _⟩ => show win0_1.index t (1 : Fin 2) * 64 + 1 * (y 1).val = (y 1).val; rw [e1]; omega

theorem blk2 (c : Dev nD) (t : Fin cfg0.N) : (iblk m c 2 t : Vec Ideal S1x64 .f32)
    = shapeCast S1x64 (m ((c : Thread nD τ).loc main_arg2)) shapeCasts_S64_S1x64 := by
  obtain ⟨-, -, -, -, -, -, e0, e1, -⟩ := idx_facts t
  refine Eq.trans (funext fun y => ?_) (V_v1 m c)
  unfold iblk
  rw [View.read_apply]
  show V m c main_v1 _ = V m c main_v1 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

theorem blk3 (c : Dev nD) (t : Fin cfg0.N) : (iblk m c 3 t : Vec Ideal S3x64x64 .f32) = m ((c : Thread nD τ).loc main_arg3) := by
  obtain ⟨-, -, -, -, -, -, -, -, e0, e1, e2, -⟩ := idx_facts t
  refine Eq.trans (funext fun y => ?_) (V_main_arg3 m c)
  unfold iblk
  rw [View.read_apply]
  show V m c main_arg3 _ = V m c main_arg3 y
  congr 1
  funext a
  apply Fin.ext
  match a with
  | ⟨0, _⟩ => show win0_3.index t (0 : Fin 3) * 3 + 1 * (y 0).val = (y 0).val; rw [e0]; omega
  | ⟨1, _⟩ => show win0_3.index t (1 : Fin 3) * 64 + 1 * (y 1).val = (y 1).val; rw [e1]; omega
  | ⟨2, _⟩ => show win0_3.index t (2 : Fin 3) * 64 + 1 * (y 2).val = (y 2).val; rw [e2]; omega

theorem blk4 (c : Dev nD) (t : Fin cfg0.N) : (iblk m c 4 t : Vec Ideal S3x64 .f32) = m ((c : Thread nD τ).loc main_arg4) := by
  obtain ⟨-, -, -, -, -, -, -, -, -, -, -, e0, e1, -⟩ := idx_facts t
  refine Eq.trans (funext fun y => ?_) (V_main_arg4 m c)
  unfold iblk
  rw [View.read_apply]
  show V m c main_arg4 _ = V m c main_arg4 y
  congr 1
  funext a
  apply Fin.ext
  match a with
  | ⟨0, _⟩ => show win0_4.index t (0 : Fin 2) * 3 + 1 * (y 0).val = (y 0).val; rw [e0]; omega
  | ⟨1, _⟩ => show win0_4.index t (1 : Fin 2) * 64 + 1 * (y 1).val = (y 1).val; rw [e1]; omega

theorem blk5 (c : Dev nD) (t : Fin cfg0.N) : (iblk m c 5 t : Vec Ideal S64x4 .f32) = m ((c : Thread nD τ).loc main_arg5) := by
  obtain ⟨-, -, -, -, -, -, -, -, -, -, -, -, -, e0, e1, -⟩ := idx_facts t
  refine Eq.trans (funext fun y => ?_) (V_main_arg5 m c)
  unfold iblk
  rw [View.read_apply]
  show V m c main_arg5 _ = V m c main_arg5 y
  congr 1
  funext a
  apply Fin.ext
  match a with
  | ⟨0, _⟩ => show win0_5.index t (0 : Fin 2) * 64 + 1 * (y 0).val = (y 0).val; rw [e0]; omega
  | ⟨1, _⟩ => show win0_5.index t (1 : Fin 2) * 4 + 1 * (y 1).val = (y 1).val; rw [e1]; omega

theorem blk6 (c : Dev nD) (t : Fin cfg0.N) : (iblk m c 6 t : Vec Ideal S1x4 .f32)
    = shapeCast S1x4 (m ((c : Thread nD τ).loc main_arg6)) shapeCasts_S4_S1x4 := by
  obtain ⟨-, -, -, -, -, -, -, -, -, -, -, -, -, -, -, e0, e1⟩ := idx_facts t
  refine Eq.trans (funext fun y => ?_) (V_v2 m c)
  unfold iblk
  rw [View.read_apply]
  show V m c main_v2 _ = V m c main_v2 y
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 4 + 1 * (y 1).val = (y 1).val; rw [e1]; omega

/-! ## What a point writes back, the cover, the array -/

/-- WHAT POINT `t` WRITES BACK is block `t` of the reference's summed outputs. -/
theorem flushed_eq (c : Dev nD) (t : Fin cfg0.N) :
    (dats m 0 c).flushed 7 t = ((cfg0.win 7).blk t).view.read (Elt Ideal) (rowVals m c) := by
  show (cfg0.win 7).cut (grid0.coords t) ((dats m 0 c).after 7 t) = _
  rw [after0_7]
  unfold out0_7
  rw [View.canon_unit_zero zero2, blk1 m c t, blk2 m c t, blk3 m c t, blk4 m c t, blk5 m c t, blk6 m c t]
  obtain ⟨-, -, e0, e1, -⟩ := idx_facts t
  funext y
  rw [View.read_apply]
  refine payload_at (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) t.val (iblk m c 0 t) _ _
    (xblk_rows m c t) rfl rfl y _ ?_ ?_
  · show win0_7.index t (0 : Fin 2) * 6000 + 1 * (y 0).val = 6000 * t.val + (y 0).val; rw [e0]; omega
  · show win0_7.index t (1 : Fin 2) * 2 + 1 * (y 1).val = (y 1).val; rw [e1]; omega

/-- An index of the output array is in point `t`'s block iff each coordinate is in the block's range on its axis. -/
theorem mem_blk7 (t : Fin cfg0.N) (i : S132000x2.Idx) :
    i ∈ ((cfg0.win 7).blk t).view.set ↔ ∀ a : Fin 2, win0_7.index t a * S6000x2.size a ≤ (i a).val ∧ (i a).val < win0_7.index t a * S6000x2.size a + S6000x2.size a := by
  show i ∈ ((View.whole main_v3).slice (win0_7.rect t)).set ↔ _
  rw [View.set_slice_whole, Rect.mem_set_unit]
  exact Iff.rfl

/-- Row `r` of the output is in block `r / 6000`. -/
theorem covered (i : S132000x2.Idx) : ∃ t : Fin cfg0.N, (cfg0.win 7).flush t = true ∧ i ∈ ((cfg0.win 7).blk t).view.set := by
  have hi0 : (i 0).val < 132000 := (i 0).isLt
  have hi1 : (i 1).val < 2 := (i 1).isLt
  have hN : cfg0.N = 22 := N_0
  have ht : (i 0).val / 6000 < cfg0.N := by rw [hN]; omega
  obtain ⟨-, -, e0, e1, -⟩ := idx_facts ⟨(i 0).val / 6000, ht⟩
  refine ⟨⟨(i 0).val / 6000, ht⟩, flush0_7 _, ?_⟩
  rw [mem_blk7]
  intro a
  match a with
  | ⟨0, _⟩ =>
    show win0_7.index ⟨(i 0).val / 6000, ht⟩ (0 : Fin 2) * 6000 ≤ (i 0).val ∧ (i 0).val < win0_7.index ⟨(i 0).val / 6000, ht⟩ (0 : Fin 2) * 6000 + 6000
    rw [e0]; show (i 0).val / 6000 * 6000 ≤ (i 0).val ∧ (i 0).val < (i 0).val / 6000 * 6000 + 6000; omega
  | ⟨1, _⟩ =>
    show win0_7.index ⟨(i 0).val / 6000, ht⟩ (1 : Fin 2) * 2 ≤ (i 1).val ∧ (i 1).val < win0_7.index ⟨(i 0).val / 6000, ht⟩ (1 : Fin 2) * 2 + 2
    rw [e1]; omega

/-- THE OUTPUT ARRAY after the run: the reference's summed outputs of the argument arrays. -/
theorem final7 (c : Dev nD) : (dats m 0 c).arrAt 7 cfg0.N = rowVals m c :=
  (dats m 0 c).arrAt_eq_of_cover 7 (rowVals m c) (fun t _ => flushed_eq m c t) covered

end Cert.KernelIdeal.Rows

end
-- ==== Proof.Densify.lean ====
/-
  The densification both programs end with, and the two results through it.

  After the per-row values `vals : [132000, 2]` both programs run the same host lines: start from the zero
  `[12000, 12000]` matrix and, for `mj = 0, 1`, scatter-add column `mj` of `vals` at the index pairs
  `(2·coo₀ + mj, 2·coo₁ + mj)`, a negative index counted from the end (add 12000). These lines read the float
  arguments only through `vals`, so they are ONE function `densify vals coo` — written here over the reference's
  stages for the index arithmetic — and each program's result is `densify` of its own `vals`: for the reference by
  unfolding its stages, for the kernel by running the host lines after the region on the region's output array.
-/
import proofs.«122925_j11347303596498_1_alg».proof.Proof.KernelValue

set_option maxRecDepth 16384

noncomputable section

namespace Cert.Densify

open Idealize.ShloMosaic
open Cert.ReferenceIdeal Cert.ReferenceIdeal.Gen Cert.ReferenceIdeal.Read

/-- The dense matrix from the per-row values and the coordinate table. -/
def densify (vals : FVec Ideal S132000x2 .f32) (coo : (⟨S2x132000, .i32⟩ : BufTy).Contents (Elt Ideal)) :
    FVec Ideal S12000x12000 .f32 :=
  Host.scatterAdd (F := Ideal) scatter_S12000x12000_S132000x2_S132000_n_01_01_1
    (Host.scatterAdd (F := Ideal) scatter_S12000x12000_S132000x2_S132000_n_01_01_1 (val_main_v39 (F := Ideal)) (val_main_v62 (F := Ideal) coo)
      (shapeCast S132000 (extractStridedSlice S132000x1 ![0, 0] vals slices_S132000x2_S132000x1_0_0) shapeCasts_S132000x1_S132000))
    (val_main_v86 (F := Ideal) coo)
    (shapeCast S132000 (extractStridedSlice S132000x1 ![0, 1] vals slices_S132000x2_S132000x1_0_1) shapeCasts_S132000x1_S132000)

/-- The reference's result is the densification of its summed outputs. -/
theorem ref_eq (x0 : (⟨S6000x22x3, .f32⟩ : BufTy).Contents (Elt Ideal)) (x1 : (⟨S3x64, .f32⟩ : BufTy).Contents (Elt Ideal))
    (x2 : (⟨S64, .f32⟩ : BufTy).Contents (Elt Ideal)) (x3 : (⟨S3x64x64, .f32⟩ : BufTy).Contents (Elt Ideal))
    (x4 : (⟨S3x64, .f32⟩ : BufTy).Contents (Elt Ideal)) (x5 : (⟨S64x4, .f32⟩ : BufTy).Contents (Elt Ideal))
    (x6 : (⟨S4, .f32⟩ : BufTy).Contents (Elt Ideal)) (x7 : (⟨S2x132000, .i32⟩ : BufTy).Contents (Elt Ideal)) :
    val_main_v87 (F := Ideal) x0 x1 x2 x3 x4 x5 x6 x7 = densify (val_main_v38 (F := Ideal) x0 x1 x2 x3 x4 x5 x6) x7 := rfl

end Cert.Densify

namespace Cert.KernelIdeal.Rows

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 44000000 in
/-- The host lines after the region, from ANY contents `W` of the core's buffers: @main's result is the densification of
    what `W` holds in the region's output array, with the coordinate table `W` holds. (Each line's result is read back
    at the buffers the later lines read; the lines are the reference's, buffer for buffer.) -/
theorem tail_of (W : Valuation τ sig (Elt Ideal)) :
    StableHlo.after hostOps1 W (Proc.devRef .tc main_v52)
      = Cert.Densify.densify (W (Proc.devRef .tc main_v3)) (W (Proc.devRef .tc main_arg7)) := by
  after_results_simp <;> rfl

/-- The kernel's result: the host lines after the region, run on the region's output array, densify the reference's
    summed outputs of the kernel's own arguments. -/
theorem tail_eq (c : Dev nD) :
    Pipeline.afterTail₀ cfgs (dats m) 0 (V0 m) [hostOps1] c main_v52
      = Cert.Densify.densify (rowVals m c) (m ((c : Thread nD τ).loc main_arg7)) := by
  unfold Pipeline.afterTail₀
  simp only [List.flatten_cons, List.flatten_nil, List.append_nil]
  rw [tail_of]
  exact congrArg₂ Cert.Densify.densify
    ((Pipeline.withArrays_arr spec0 launch0.win.arr_inj c _ _ 7).trans (final7 m c))
    ((Pipeline.withArrays_of_ne _ c (V0 m c) _ main_arg7 (by exact (by decide : ∀ w, Pipeline.arrRef spec0 w ≠ main_arg7))).trans
      (V_main_arg7 m c))

/-- The frame run re-posted with the result named: @main's result is the densification of the reference's summed outputs
    of the kernel's arguments, and the arguments end unchanged (each read off the run's post as the generated frame
    reads it: a staged input by its array's entry contents, a bypassing buffer by the lines after the region). -/
theorem run (ρ : Dev nD → PrngReg) :
    θ_run defs (onTc (τ := τ) (main (F := Ideal))) ⟨m, fun _ => 0, ρ⟩ fun r => ∀ c : Dev nD,
      r.2.mem ((c.tc : Thread nD τ).loc main_v52) = Cert.Densify.densify (rowVals m c) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v52 (Pipeline.mem_restRefs_of main_v52 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Rows

end
-- ==== Proof.lean ====
/-
  The certificate: the Pallas perceptron kernel with its host densification against the jnp reference, over the
  extended reals.

  Both programs flatten the input to `[132000, 3]`, push every row through the same five affine layers (a rectifier
  after each of the first four), add output columns `j` and `2 + j`, and scatter-add the two resulting columns into a
  zero `[12000, 12000]` matrix at index pairs computed from the coordinate table. The kernel computes the per-row values
  22 blocks of 6000 rows at a time, with its matrix operands changed to a narrower float format (the identity on extended
  reals) and each product accumulated into zero; the reference computes them on all rows at once and spells the last sum as
  a reduction from zero. Row by row these are the same values (Proof/KernelRows.lean, over Proof/LibRowBlock.lean and
  Proof/LibRowDense.lean), so the kernel's output array ends holding the reference's summed outputs
  (Proof/KernelValue.lean), and the host lines after it — the same in both programs — make of it the same dense matrix
  (Proof/Densify.lean). No law used needs finiteness: `0 + x = x` and sums of products term by term.

  The frames: the kernel's at both instances are the generated ones; the reference has no kernel and its frame is its
  generated run with the result dropped. The idealization rewrote nothing, so `preserves` is `True`.
-/
import proofs.«122925_j11347303596498_1_alg».proof.Defs
import proofs.«122925_j11347303596498_1_alg».proof.Proof.Gen.Kernel
import proofs.«122925_j11347303596498_1_alg».proof.Proof.Gen.Kernel.Skeleton
import proofs.«122925_j11347303596498_1_alg».proof.Proof.Gen.Kernel.Launch
import proofs.«122925_j11347303596498_1_alg».proof.Proof.Gen.Kernel.Points
import proofs.«122925_j11347303596498_1_alg».proof.Proof.Gen.Kernel.Frame
import proofs.«122925_j11347303596498_1_alg».proof.Proof.Gen.KernelIdeal
import proofs.«122925_j11347303596498_1_alg».proof.Proof.Gen.KernelIdeal.Skeleton
import proofs.«122925_j11347303596498_1_alg».proof.Proof.Gen.KernelIdeal.Launch
import proofs.«122925_j11347303596498_1_alg».proof.Proof.Gen.KernelIdeal.Points
import proofs.«122925_j11347303596498_1_alg».proof.Proof.Gen.KernelIdeal.Frame
import proofs.«122925_j11347303596498_1_alg».proof.Proof.Gen.ReferenceIdeal
import proofs.«122925_j11347303596498_1_alg».proof.Proof.Gen.Pre_finite_inputs
import proofs.«122925_j11347303596498_1_alg».proof.Proof.Gen.ReferenceIdeal.Run
import proofs.«122925_j11347303596498_1_alg».proof.Proof.Gen.ReferenceIdeal.Read
import proofs.«122925_j11347303596498_1_alg».proof.Proof.Densify
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the densification of the reference's summed outputs of the same argument arrays. -/
theorem algebraic : Cert.algebraic_KernelIdeal_ReferenceIdeal := by
  intro m ρ m' ρ' _ hagree
  refine ⟨_, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v87_eq, Cert.Densify.ref_eq, (hagree c).1, (hagree c).2.1, (hagree c).2.2.1,
    (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
